-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x5 : Shape := ⟨3, ![32, 2048, 5]⟩
abbrev S128 : Shape := ⟨1, ![128]⟩
abbrev S5x128 : Shape := ⟨2, ![5, 128]⟩
abbrev S_ : Shape := ⟨0, ![]⟩

class Facts : Prop where
  bcast_S_S32x2048x5 : S_.BroadcastsInDim S32x2048x5 (![] : Fin 0 → Fin S32x2048x5.rank)
  reducesTo_S32x2048x5_S_d0_1_2 : S32x2048x5.ReducesTo [0, 1, 2] S_
  h_S_ : 0 < S_.numel
  bcast_S_S128 : S_.BroadcastsInDim S128 (![] : Fin 0 → Fin S128.rank)
  reducesTo_S128_S_d0 : S128.ReducesTo [0] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg7 : FVec F S128 .f32) (main_arg8 : FVec F S128 .f32) (main_arg9 : FVec F S5x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S5x128 .f32 := Host.absf main_arg9
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S5x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S32x2048x5 .f32) (main_arg1 : FVec F S128 .f32) (main_arg2 : FVec F S128 .f32) (main_arg3 : FVec F S128 .f32) (main_arg4 : FVec F S128 .f32) (main_arg5 : FVec F S128 .f32) (main_arg6 : FVec F S128 .f32) (main_arg7 : FVec F S128 .f32) (main_arg8 : FVec F S128 .f32) (main_arg9 : FVec F S5x128 .f32) : IVec S_ 1 :=
  let main_v0 : FVec F S32x2048x5 .f32 := Host.absf main_arg0
  let main_cst : FVec F S_ .f32 := constant S_ .f32 0x7F800000#32
  let main_v1 : FVec F S32x2048x5 .f32 := broadcastInDim S32x2048x5 ![] bcast_S_S32x2048x5 main_cst
  let main_v2 : IVec S32x2048x5 1 := cmpf .olt main_v0 main_v1
  let main_c : IVec S_ 1 := constantI S_ 1 1#1
  let main_v3 : IVec S_ 1 := (fun x v => Host.reduce IntOp.andi x v reducesTo_S32x2048x5_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S32x2048x5 : Shape := ⟨3, ![32, 2048, 5]⟩
abbrev S128 : Shape := ⟨1, ![128]⟩
abbrev S5x128 : Shape := ⟨2, ![5, 128]⟩
abbrev S1x128 : Shape := ⟨2, ![1, 128]⟩
abbrev S128x1 : Shape := ⟨2, ![128, 1]⟩
abbrev S128x5 : Shape := ⟨2, ![128, 5]⟩
abbrev S5x5 : Shape := ⟨2, ![5, 5]⟩
abbrev S_ : Shape := ⟨0, ![]⟩
abbrev S5x128x1 : Shape := ⟨3, ![5, 128, 1]⟩
abbrev S5x1x5 : Shape := ⟨3, ![5, 1, 5]⟩
abbrev S5x128x5 : Shape := ⟨3, ![5, 128, 5]⟩
abbrev S5x640 : Shape := ⟨2, ![5, 640]⟩
abbrev S1x640 : Shape := ⟨2, ![1, 640]⟩
abbrev S2048x32x5 : Shape := ⟨3, ![2048, 32, 5]⟩
abbrev S32x2048x640 : Shape := ⟨3, ![32, 2048, 640]⟩
abbrev S1x2048x5 : Shape := ⟨3, ![1, 2048, 5]⟩
abbrev S1x2048x640 : Shape := ⟨3, ![1, 2048, 640]⟩
abbrev S2048x5 : Shape := ⟨2, ![2048, 5]⟩
abbrev S2048x1 : Shape := ⟨2, ![2048, 1]⟩
abbrev S2048x640 : Shape := ⟨2, ![2048, 640]⟩

abbrev nBuf : Space → Nat
  | .hbm => 55
  | .vmem => 6
  | .smem => 0
  | _ => 0

abbrev bufTy : (tb : Table) → Fin (tcTables nBuf tb) → BufTy
  | .hbm, ⟨0, _⟩ => ⟨S32x2048x5, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S5x128, .f32⟩
  | .hbm, ⟨10, _⟩ => ⟨S1x128, .f32⟩
  | .hbm, ⟨11, _⟩ => ⟨S128, .f32⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S128x1, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1, .f32⟩
  | .hbm, ⟨30, _⟩ => ⟨S128x5, .f32⟩
  | .hbm, ⟨31, _⟩ => ⟨S5x5, .i32⟩
  | .hbm, ⟨32, _⟩ => ⟨S5x5, .i32⟩
  | .hbm, ⟨33, _⟩ => ⟨S_, .i32⟩
  | .hbm, ⟨34, _⟩ => ⟨S5x5, .i32⟩
  | .hbm, ⟨35, _⟩ => ⟨S5x5, .i32⟩
  | .hbm, ⟨36, _⟩ => ⟨S5x5, .i1⟩
  | .hbm, ⟨37, _⟩ => ⟨S5x5, .f32⟩
  | .hbm, ⟨38, _⟩ => ⟨S5x128, .f32⟩
  | .hbm, ⟨39, _⟩ => ⟨S5x128x1, .f32⟩
  | .hbm, ⟨40, _⟩ => ⟨S5x1x5, .f32⟩
  | .hbm, ⟨41, _⟩ => ⟨S5x128x5, .f32⟩
  | .hbm, ⟨42, _⟩ => ⟨S5x128x5, .f32⟩
  | .hbm, ⟨43, _⟩ => ⟨S5x128x5, .f32⟩
  | .hbm, ⟨44, _⟩ => ⟨S5x640, .f32⟩
  | .hbm, ⟨45, _⟩ => ⟨S128x1, .f32⟩
  | .hbm, ⟨46, _⟩ => ⟨S128x1, .f32⟩
  | .hbm, ⟨47, _⟩ => ⟨S128x1, .f32⟩
  | .hbm, ⟨48, _⟩ => ⟨S128x1, .f32⟩
  | .hbm, ⟨49, _⟩ => ⟨S128x1, .f32⟩
  | .hbm, ⟨50, _⟩ => ⟨S128x5, .f32⟩
  | .hbm, ⟨51, _⟩ => ⟨S1x640, .f32⟩
  | .hbm, ⟨52, _⟩ => ⟨S2048x32x5, .f32⟩
  | .hbm, ⟨53, _⟩ => ⟨S32x2048x5, .f32⟩
  | .hbm, ⟨54, _⟩ => ⟨S32x2048x640, .f32⟩
  | .local _ .vmem, ⟨0, _⟩ => ⟨S1x2048x5, .f32⟩
  | .local _ .vmem, ⟨1, _⟩ => ⟨S1x2048x5, .f32⟩
  | .local _ .vmem, ⟨2, _⟩ => ⟨S5x640, .f32⟩
  | .local _ .vmem, ⟨3, _⟩ => ⟨S1x640, .f32⟩
  | .local _ .vmem, ⟨4, _⟩ => ⟨S1x2048x640, .f32⟩
  | .local _ .vmem, ⟨5, _⟩ => ⟨S1x2048x640, .f32⟩
  | _, _ => ⟨S32x2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S5x128_S1x128_0_0 : S5x128.Slices ![0, 0] S1x128
  shapeCasts_S1x128_S128 : S1x128.ShapeCasts S128
  slices_S5x128_S1x128_1_0 : S5x128.Slices ![1, 0] S1x128
  slices_S5x128_S1x128_2_0 : S5x128.Slices ![2, 0] S1x128
  slices_S5x128_S1x128_3_0 : S5x128.Slices ![3, 0] S1x128
  slices_S5x128_S1x128_4_0 : S5x128.Slices ![4, 0] S1x128
  bcast_S128_S128x1_0 : S128.BroadcastsInDim S128x1 (![0] : Fin 1 → Fin S128x1.rank)
  concatenates_S128x1_S128x1_S128x1_S128x1_S128x1_S128x5_d1 : Shape.Concatenates [S128x1, S128x1, S128x1, S128x1, S128x1] S128x5 1
  bcast_S_S5x5 : S_.BroadcastsInDim S5x5 (![] : Fin 0 → Fin S5x5.rank)
  transposes_S128x5_S5x128_1_0 : S128x5.Transposes [1, 0] S5x128
  bcast_S5x128_S5x128x1_0_1 : S5x128.BroadcastsInDim S5x128x1 (![0, 1] : Fin 2 → Fin S5x128x1.rank)
  bcast_S5x5_S5x1x5_0_2 : S5x5.BroadcastsInDim S5x1x5 (![0, 2] : Fin 2 → Fin S5x1x5.rank)
  bcast_S5x128x1_S5x128x5_0_1_2 : S5x128x1.BroadcastsInDim S5x128x5 (![0, 1, 2] : Fin 3 → Fin S5x128x5.rank)
  bcast_S5x1x5_S5x128x5_0_1_2 : S5x1x5.BroadcastsInDim S5x128x5 (![0, 1, 2] : Fin 3 → Fin S5x128x5.rank)
  shapeCasts_S5x128x5_S5x640 : S5x128x5.ShapeCasts S5x640
  shapeCasts_S128x5_S1x640 : S128x5.ShapeCasts S1x640
  transposes_S32x2048x5_S2048x32x5_1_0_2 : S32x2048x5.Transposes [1, 0, 2] S2048x32x5
  shapeCasts_S2048x32x5_S32x2048x5 : S2048x32x5.ShapeCasts S32x2048x5
  inb_S1x2048x5_S1x2048x5_0_0_0 : ∀ a, (![0, 0, 0] : Fin 3 → Nat) a + S1x2048x5.size a ≤ S1x2048x5.size a
  h_S1x2048x5 : 0 < S1x2048x5.numel
  shapeCasts_S1x2048x5_S2048x5 : S1x2048x5.ShapeCasts S2048x5
  inb_S5x640_S5x640_0_0 : ∀ a, (![0, 0] : Fin 2 → Nat) a + S5x640.size a ≤ S5x640.size a
  h_S5x640 : 0 < S5x640.numel
  shapeCasts_S5x640_S5x640 : S5x640.ShapeCasts S5x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  slices_S2048x5_o0_0_S2048x1 : S2048x5.Slices ![0, 0] S2048x1
  slices_S5x640_o0_0_S1x640 : S5x640.Slices ![0, 0] S1x640
  broadcasts_S2048x1_S2048x640 : S2048x1.Broadcasts S2048x640
  broadcasts_S1x640_S2048x640 : S1x640.Broadcasts S2048x640
  slices_S2048x5_o0_1_S2048x1 : S2048x5.Slices ![0, 1] S2048x1
  slices_S5x640_o1_0_S1x640 : S5x640.Slices ![1, 0] S1x640
  slices_S2048x5_o0_2_S2048x1 : S2048x5.Slices ![0, 2] S2048x1
  slices_S5x640_o2_0_S1x640 : S5x640.Slices ![2, 0] S1x640
  slices_S2048x5_o0_3_S2048x1 : S2048x5.Slices ![0, 3] S2048x1
  slices_S5x640_o3_0_S1x640 : S5x640.Slices ![3, 0] S1x640
  slices_S2048x5_o0_4_S2048x1 : S2048x5.Slices ![0, 4] S2048x1
  slices_S5x640_o4_0_S1x640 : S5x640.Slices ![4, 0] S1x640
  inb_S1x2048x640_S1x2048x640_0_0_0 : ∀ a, (![0, 0, 0] : Fin 3 → Nat) a + S1x2048x640.size a ≤ S1x2048x640.size a
  h_S1x2048x640 : 0 < S1x2048x640.numel
  shapeCasts_S1x2048x640_S2048x640 : S1x2048x640.ShapeCasts S2048x640
  shapeCasts_S2048x640_S1x2048x640 : S2048x640.ShapeCasts S1x2048x640
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x5.size a ≤ S32x2048x5.size a
  hwx0_0 : ∀ i : grid0.Coords, EltTy.bits .f32 = 32 ∨ (Rect.block (s := S32x2048x5) S1x2048x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x640.size a ≤ S5x640.size a
  hwx0_1 : ∀ i : grid0.Coords, EltTy.bits .f32 = 32 ∨ (Rect.block (s := S5x640) S5x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x640.size a ≤ S32x2048x640.size a
  hwx0_3 : ∀ i : grid0.Coords, EltTy.bits .f32 = 32 ∨ (Rect.block (s := S32x2048x640) S1x2048x640.size (cc0_transform_3 i) (hinb0_3 i)).WholeWords (EltTy.packing .f32)

variable [Facts₀]

abbrev win0_0 : Pipeline.Window sig grid0 :=
  Pipeline.Window.ofSpec (Memref.whole main_v42) S1x2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x2048x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x5 : Shape := ⟨3, ![32, 2048, 5]⟩
abbrev S128 : Shape := ⟨1, ![128]⟩
abbrev S5x128 : Shape := ⟨2, ![5, 128]⟩
abbrev S32x2048x1 : Shape := ⟨3, ![32, 2048, 1]⟩
abbrev S1x1x128 : Shape := ⟨3, ![1, 1, 128]⟩
abbrev S32x2048x128 : Shape := ⟨3, ![32, 2048, 128]⟩
abbrev S1x128 : Shape := ⟨2, ![1, 128]⟩
abbrev S32x2048x128x1 : Shape := ⟨4, ![32, 2048, 128, 1]⟩
abbrev S32x2048x128x5 : Shape := ⟨4, ![32, 2048, 128, 5]⟩
abbrev S2048x32x128x5 : Shape := ⟨4, ![2048, 32, 128, 5]⟩
abbrev S32x2048x640 : Shape := ⟨3, ![32, 2048, 640]⟩

abbrev nBuf : Space → Nat
  | .hbm => 83
  | .vmem => 0
  | .smem => 0
  | _ => 0

abbrev bufTy : (tb : Table) → Fin (tcTables nBuf tb) → BufTy
  | .hbm, ⟨0, _⟩ => ⟨S32x2048x5, .f32⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S5x128, .f32⟩
  | .hbm, ⟨10, _⟩ => ⟨S32x2048x1, .f32⟩
  | .hbm, ⟨11, _⟩ => ⟨S1x1x128, .f32⟩
  | .hbm, ⟨12, _⟩ => ⟨S32x2048x128, .f32⟩
  | .hbm, ⟨13, _⟩ => ⟨S32x2048x128, .f32⟩
  | .hbm, ⟨14, _⟩ => ⟨S32x2048x128, .f32⟩
  | .hbm, ⟨15, _⟩ => ⟨S1x1x128, .f32⟩
  | .hbm, ⟨16, _⟩ => ⟨S32x2048x128, .f32⟩
  | .hbm, ⟨17, _⟩ => ⟨S32x2048x128, .f32⟩
  | .hbm, ⟨18, _⟩ => ⟨S1x128, .f32⟩
  | .hbm, ⟨19, _⟩ => ⟨S128, .f32⟩
  | .hbm, ⟨20, _⟩ => ⟨S1x1x128, .f32⟩
  | .hbm, ⟨21, _⟩ => ⟨S32x2048x128, .f32⟩
  | .hbm, ⟨22, _⟩ => ⟨S32x2048x128, .f32⟩
  | .hbm, ⟨23, _⟩ => ⟨S32x2048x1, .f32⟩
  | .hbm, ⟨24, _⟩ => ⟨S1x1x128, .f32⟩
  | .hbm, ⟨25, _⟩ => ⟨S32x2048x128, .f32⟩
  | .hbm, ⟨26, _⟩ => ⟨S32x2048x128, .f32⟩
  | .hbm, ⟨27, _⟩ => ⟨S32x2048x128, .f32⟩
  | .hbm, ⟨28, _⟩ => ⟨S1x1x128, .f32⟩
  | .hbm, ⟨29, _⟩ => ⟨S32x2048x128, .f32⟩
  | .hbm, ⟨30, _⟩ => ⟨S32x2048x128, .f32⟩
  | .hbm, ⟨31, _⟩ => ⟨S1x128, .f32⟩
  | .hbm, ⟨32, _⟩ => ⟨S128, .f32⟩
  | .hbm, ⟨33, _⟩ => ⟨S1x1x128, .f32⟩
  | .hbm, ⟨34, _⟩ => ⟨S32x2048x128, .f32⟩
  | .hbm, ⟨35, _⟩ => ⟨S32x2048x128, .f32⟩
  | .hbm, ⟨36, _⟩ => ⟨S32x2048x1, .f32⟩
  | .hbm, ⟨37, _⟩ => ⟨S1x1x128, .f32⟩
  | .hbm, ⟨38, _⟩ => ⟨S32x2048x128, .f32⟩
  | .hbm, ⟨39, _⟩ => ⟨S32x2048x128, .f32⟩
  | .hbm, ⟨40, _⟩ => ⟨S32x2048x128, .f32⟩
  | .hbm, ⟨41, _⟩ => ⟨S1x1x128, .f32⟩
  | .hbm, ⟨42, _⟩ => ⟨S32x2048x128, .f32⟩
  | .hbm, ⟨43, _⟩ => ⟨S32x2048x128, .f32⟩
  | .hbm, ⟨44, _⟩ => ⟨S1x128, .f32⟩
  | .hbm, ⟨45, _⟩ => ⟨S128, .f32⟩
  | .hbm, ⟨46, _⟩ => ⟨S1x1x128, .f32⟩
  | .hbm, ⟨47, _⟩ => ⟨S32x2048x128, .f32⟩
  | .hbm, ⟨48, _⟩ => ⟨S32x2048x128, .f32⟩
  | .hbm, ⟨49, _⟩ => ⟨S32x2048x1, .f32⟩
  | .hbm, ⟨50, _⟩ => ⟨S1x1x128, .f32⟩
  | .hbm, ⟨51, _⟩ => ⟨S32x2048x128, .f32⟩
  | .hbm, ⟨52, _⟩ => ⟨S32x2048x128, .f32⟩
  | .hbm, ⟨53, _⟩ => ⟨S32x2048x128, .f32⟩
  | .hbm, ⟨54, _⟩ => ⟨S1x1x128, .f32⟩
  | .hbm, ⟨55, _⟩ => ⟨S32x2048x128, .f32⟩
  | .hbm, ⟨56, _⟩ => ⟨S32x2048x128, .f32⟩
  | .hbm, ⟨57, _⟩ => ⟨S1x128, .f32⟩
  | .hbm, ⟨58, _⟩ => ⟨S128, .f32⟩
  | .hbm, ⟨59, _⟩ => ⟨S1x1x128, .f32⟩
  | .hbm, ⟨60, _⟩ => ⟨S32x2048x128, .f32⟩
  | .hbm, ⟨61, _⟩ => ⟨S32x2048x128, .f32⟩
  | .hbm, ⟨62, _⟩ => ⟨S32x2048x1, .f32⟩
  | .hbm, ⟨63, _⟩ => ⟨S1x1x128, .f32⟩
  | .hbm, ⟨64, _⟩ => ⟨S32x2048x128, .f32⟩
  | .hbm, ⟨65, _⟩ => ⟨S32x2048x128, .f32⟩
  | .hbm, ⟨66, _⟩ => ⟨S32x2048x128, .f32⟩
  | .hbm, ⟨67, _⟩ => ⟨S1x1x128, .f32⟩
  | .hbm, ⟨68, _⟩ => ⟨S32x2048x128, .f32⟩
  | .hbm, ⟨69, _⟩ => ⟨S32x2048x128, .f32⟩
  | .hbm, ⟨70, _⟩ => ⟨S1x128, .f32⟩
  | .hbm, ⟨71, _⟩ => ⟨S128, .f32⟩
  | .hbm, ⟨72, _⟩ => ⟨S1x1x128, .f32⟩
  | .hbm, ⟨73, _⟩ => ⟨S32x2048x128, .f32⟩
  | .hbm, ⟨74, _⟩ => ⟨S32x2048x128, .f32⟩
  | .hbm, ⟨75, _⟩ => ⟨S32x2048x128x1, .f32⟩
  | .hbm, ⟨76, _⟩ => ⟨S32x2048x128x1, .f32⟩
  | .hbm, ⟨77, _⟩ => ⟨S32x2048x128x1, .f32⟩
  | .hbm, ⟨78, _⟩ => ⟨S32x2048x128x1, .f32⟩
  | .hbm, ⟨79, _⟩ => ⟨S32x2048x128x1, .f32⟩
  | .hbm, ⟨80, _⟩ => ⟨S32x2048x128x5, .f32⟩
  | .hbm, ⟨81, _⟩ => ⟨S2048x32x128x5, .f32⟩
  | .hbm, ⟨82, _⟩ => ⟨S32x2048x640, .f32⟩
  | _, _ => ⟨S32x2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩

abbrev nD : Nat := 1
abbrev τ : Topo := Topo.v7x

variable {F : FTy → Type} [FloatOps F]

class Facts₀ : Prop where
  slices_S32x2048x5_S32x2048x1_0_0_0 : S32x2048x5.Slices ![0, 0, 0] S32x2048x1
  bcast_S128_S1x1x128_2 : S128.BroadcastsInDim S1x1x128 (![2] : Fin 1 → Fin S1x1x128.rank)
  bcast_S32x2048x1_S32x2048x128_0_1_2 : S32x2048x1.BroadcastsInDim S32x2048x128 (![0, 1, 2] : Fin 3 → Fin S32x2048x128.rank)
  bcast_S1x1x128_S32x2048x128_0_1_2 : S1x1x128.BroadcastsInDim S32x2048x128 (![0, 1, 2] : Fin 3 → Fin S32x2048x128.rank)
  slices_S5x128_S1x128_0_0 : S5x128.Slices ![0, 0] S1x128
  shapeCasts_S1x128_S128 : S1x128.ShapeCasts S128
  slices_S32x2048x5_S32x2048x1_0_0_1 : S32x2048x5.Slices ![0, 0, 1] S32x2048x1
  slices_S5x128_S1x128_1_0 : S5x128.Slices ![1, 0] S1x128
  slices_S32x2048x5_S32x2048x1_0_0_2 : S32x2048x5.Slices ![0, 0, 2] S32x2048x1
  slices_S5x128_S1x128_2_0 : S5x128.Slices ![2, 0] S1x128
  slices_S32x2048x5_S32x2048x1_0_0_3 : S32x2048x5.Slices ![0, 0, 3] S32x2048x1
  slices_S5x128_S1x128_3_0 : S5x128.Slices ![3, 0] S1x128
  slices_S32x2048x5_S32x2048x1_0_0_4 : S32x2048x5.Slices ![0, 0, 4] S32x2048x1
  slices_S5x128_S1x128_4_0 : S5x128.Slices ![4, 0] S1x128
  bcast_S32x2048x128_S32x2048x128x1_0_1_2 : S32x2048x128.BroadcastsInDim S32x2048x128x1 (![0, 1, 2] : Fin 3 → Fin S32x2048x128x1.rank)
  concatenates_S32x2048x128x1_S32x2048x128x1_S32x2048x128x1_S32x2048x128x1_S32x2048x128x1_S32x2048x128x5_d3 : Shape.Concatenates [S32x2048x128x1, S32x2048x128x1, S32x2048x128x1, S32x2048x128x1, S32x2048x128x1] S32x2048x128x5 3
  transposes_S32x2048x128x5_S2048x32x128x5_1_0_2_3 : S32x2048x128x5.Transposes [1, 0, 2, 3] S2048x32x128x5
  shapeCasts_S2048x32x128x5_S32x2048x640 : S2048x32x128x5.ShapeCasts S32x2048x640

variable [Facts₀]

class Facts : Prop extends Facts₀ where

variable [Facts]
-- ==== Proof.KernelRegion.lean ====
/-
  The run of `Kernel`'s @main, at any float instance.

  @main is forty-four host operations followed by one pipelined region over a grid of 32 points. The host
  operations build the region's three operands from the arguments and write nothing else: the argument arrays are
  among the buffers no operation of the prefix writes, so the region finds them as launched. At grid point `t` the
  region's body is handed a 2048 × 5 block of the first operand (block `t` along the leading axis), the whole 5 × 640
  second operand and the whole 1 × 640 third operand, and stores one 2048 × 640 value into the result's staging buffer,
  covering it: what that buffer holds after the body is a function of the three input blocks alone. The input windows
  are only read, so each holds its block at every point, whether a fetch happened there or not (the second and third
  operands are fetched once, their block index never moving). From these the library's frame run gives termination
  without fault, the result array as the blocks written back, and every other unscoped buffer as the region found
  it — in particular the arguments unchanged.
-/
import proofs.«128705_j11227044512450_1_alg».proof.Proof.Gen.Kernel.Launch
import proofs.«128705_j11227044512450_1_alg».proof.Proof.Gen.Kernel.Skeleton
import proofs.«128705_j11227044512450_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents rewritten by the host prefix, in order. -/
abbrev atEntry (c : Dev nD) (b : Ref sig .tc) : Buf (Elt F) ((c : Thread nD τ).loc b) :=
  StableHlo.after hostOps0 (fun b => m (c, b)) b

/-- No operation of the prefix allocates a buffer. -/
theorem prefix_allocates_nothing : (hostOps0 : List (HloOp τ sig (Elt F))).Forall fun op => op.fresh = ∅ := by
  simp only [List.Forall]; repeat' constructor

/-- @main is the host prefix and then the region, the region entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- A buffer that is the result of no operation of the prefix is found as launched. Each operation writes exactly
    its result buffer, the five-operand concatenations included, and the results are references other than `b`. -/
local macro "not_a_prefix_result" : tactic => `(tactic|
  (refine StableHlo.after_of_forall_not_mem (b := Proc.devRef .tc _) _ _ (List.forall_iff_forall_mem.mp ?_)
   simp only [hostOps0, List.Forall, StableHlo.nullary_writes, StableHlo.unary_writes, StableHlo.binary_writes,
     StableHlo.reshape_writes, StableHlo.nary_writes, Finset.mem_singleton]
   repeat' apply And.intro
   all_goals exact StableHlo.devRef_ne_of_ne (by decide)))

theorem atEntry_arg0 (c : Dev nD) : atEntry m c main_arg0 = m ((c : Thread nD τ).loc main_arg0) := by not_a_prefix_result
theorem atEntry_arg1 (c : Dev nD) : atEntry m c main_arg1 = m ((c : Thread nD τ).loc main_arg1) := by not_a_prefix_result
theorem atEntry_arg2 (c : Dev nD) : atEntry m c main_arg2 = m ((c : Thread nD τ).loc main_arg2) := by not_a_prefix_result
theorem atEntry_arg3 (c : Dev nD) : atEntry m c main_arg3 = m ((c : Thread nD τ).loc main_arg3) := by not_a_prefix_result
theorem atEntry_arg4 (c : Dev nD) : atEntry m c main_arg4 = m ((c : Thread nD τ).loc main_arg4) := by not_a_prefix_result
theorem atEntry_arg5 (c : Dev nD) : atEntry m c main_arg5 = m ((c : Thread nD τ).loc main_arg5) := by not_a_prefix_result
theorem atEntry_arg6 (c : Dev nD) : atEntry m c main_arg6 = m ((c : Thread nD τ).loc main_arg6) := by not_a_prefix_result
theorem atEntry_arg7 (c : Dev nD) : atEntry m c main_arg7 = m ((c : Thread nD τ).loc main_arg7) := by not_a_prefix_result
theorem atEntry_arg8 (c : Dev nD) : atEntry m c main_arg8 = m ((c : Thread nD τ).loc main_arg8) := by not_a_prefix_result
theorem atEntry_arg9 (c : Dev nD) : atEntry m c main_arg9 = m ((c : Thread nD τ).loc main_arg9) := by not_a_prefix_result

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, for any proof data whose array is the
    region-entry contents and whose body leaves the block in place: the window is never idle and never clipped, and
    where it was not fetched its block index has not moved since the last fetch. One statement per input window
    (the block's index type is the window's own). -/
theorem x_holds_block {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem sel_holds_block {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem bias_holds_block {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-! ## What the body leaves in the result's staging buffer -/

abbrev wholeX : Rect S1x2048x5 := Rect.unit (s := S1x2048x5) ![0, 0, 0] S1x2048x5.size inb_S1x2048x5_S1x2048x5_0_0_0
abbrev wholeSel : Rect S5x640 := Rect.unit (s := S5x640) ![0, 0] S5x640.size inb_S5x640_S5x640_0_0
abbrev wholeBias : Rect S1x640 := Rect.unit (s := S1x640) ![0, 0] S1x640.size inb_S1x640_S1x640_0_0
abbrev wholeOut : Rect S1x2048x640 := Rect.unit (s := S1x2048x640) ![0, 0, 0] S1x2048x640.size inb_S1x2048x640_S1x2048x640_0_0_0

/-- The result's staging buffer after the body, from the three input blocks: its one store, of the body's value of
    the three loads, over the whole buffer. -/
def bodyOut (x0 : Vec F S1x2048x5 .f32) (x1 : Vec F S5x640 .f32) (x2 : Vec F S1x640 .f32) : Vec F S1x2048x640 .f32 :=
  View.canon [⟨wholeOut, k0_pay1 (View.ld x0 wholeX) (View.ld x1 wholeSel) (View.ld x2 wholeBias)⟩]

/-- The one store covers the buffer. -/
theorem store_covers (p0 : Vec F S1x2048x640 .f32) (y : S1x2048x640.Idx) :
    ∃ pc ∈ ([⟨wholeOut, p0⟩] : List (View.Piece (Elt F) S1x2048x640 .f32)), y ∈ pc.1.set :=
  View.cover_of_tiled [⟨wholeOut, p0⟩] S1x2048x640.size (by rfl) y

/-! ## The body's triple -/

set_option maxHeartbeats 1000000 in
/-- The body on whole staging memrefs — the inputs' at contents `x0`, `x1`, `x2`, the result's at anything — runs to a
    continuation that holds the inputs' as they were and the result's at `bodyOut` of them. (The body also loads the
    result's buffer before storing into it and uses nothing of what it read.) -/
theorem body_triple (c : Dev nD) (E : Set ℕ) (arg1 : Memref sig .tc .vmem S1x2048x5 .f32) (harg1 : arg1.IsWhole)
    (arg2 : Memref sig .tc .vmem S5x640 .f32) (harg2 : arg2.IsWhole) (arg3 : Memref sig .tc .vmem S1x640 .f32) (harg3 : arg3.IsWhole)
    (arg4 : Memref sig .tc .vmem S1x2048x640 .f32) (harg4 : arg4.IsWhole) (i : grid0.Coords)
    (x0 : Vec F S1x2048x5 .f32) (x1 : Vec F S5x640 .f32) (x2 : Vec F S1x640 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (bodyOut x0 x1 x2)) -∗ K ⟨⟩))
      ⊢ wp frame (wpE (defs₀ (F := F)) Variants.none c none) E (cc0__dense_mlp_kernel i arg1 harg1 arg2 harg2 arg3 harg3 arg4 harg4) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- The proof data on core `c`: the arrays as the region finds them; after the body at point `t` each input's buffer at
    its block and the result's at `bodyOut` of the three blocks; the invariant the scoped rest and the generator register,
    untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => bodyOut (blockAt m c 0 t) (blockAt m c 1 t) (blockAt m c 2 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after_x (c : Dev nD) (t : Fin cfg0.N) : (dats m 0 c).after 0 t = blockAt m c 0 t := by dsimp only [dats]
theorem after_sel (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = bodyOut (blockAt m c 0 t) (blockAt m c 1 t) (blockAt m c 2 t) := by dsimp only [dats]

theorem before_x (c : Dev nD) (t : Fin cfg0.N) (d) : (dats m 0 c).before 0 t d = blockAt m c 0 t :=
  x_holds_block m (dats m 0 c) (dats_A m c 0) (after_x m c) t d
theorem before_sel (c : Dev nD) (t : Fin cfg0.N) (d) : (dats m 0 c).before 1 t d = blockAt m c 1 t :=
  sel_holds_block m (dats m 0 c) (dats_A m c 1) (after_sel m c) t d
theorem before_bias (c : Dev nD) (t : Fin cfg0.N) (d) : (dats m 0 c).before 2 t d = blockAt m c 2 t :=
  bias_holds_block m (dats m 0 c) (dats_A m c 2) (after_bias m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the core's
    `owes` pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_sel, before_bias]
  rw [show (dats m 0 c).Φ t.succ = (dats m 0 c).Φ t.castSucc from rfl,
    show (dats m 0 c).owesAt () t.succ = (dats m 0 c).owesAt () t.castSucc from rfl,
    after_x, after_sel, after_bias, after_out]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := dats_A m) (hΦ := fun _ _ => rfl)

/-- Each argument array is a buffer no window stages, so a final state of the run has it as the region found it, which
    is as launched. -/
theorem args_of_post (r : PUnit × MemSt nD τ sig (Elt F)) (h : Pipeline.FramePost cfgs (dats m) 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨((h c).2 main_arg0 (Pipeline.mem_restRefs_of main_arg0 (by decide) (by decide))).trans (atEntry_arg0 m c),
   ((h c).2 main_arg1 (Pipeline.mem_restRefs_of main_arg1 (by decide) (by decide))).trans (atEntry_arg1 m c),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c),
   ((h c).2 main_arg8 (Pipeline.mem_restRefs_of main_arg8 (by decide) (by decide))).trans (atEntry_arg8 m c),
   ((h c).2 main_arg9 (Pipeline.mem_restRefs_of main_arg9 (by decide) (by decide))).trans (atEntry_arg9 m c)⟩

/-- The program runs to the end, faults nowhere, and leaves its argument arrays unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_post m r h c) (run_main m ρ)

end Cert.Kernel.Region

end
-- ==== Proof.KernelIdealRegion.lean ====
/-
  The run of `KernelIdeal`'s @main, at any float instance.

  @main is forty-four host operations followed by one pipelined region over a grid of 32 points. The host
  operations build the region's three operands from the arguments and write nothing else: the argument arrays are
  among the buffers no operation of the prefix writes, so the region finds them as launched. At grid point `t` the
  region's body is handed a 2048 × 5 block of the first operand (block `t` along the leading axis), the whole 5 × 640
  second operand and the whole 1 × 640 third operand, and stores one 2048 × 640 value into the result's staging buffer,
  covering it: what that buffer holds after the body is a function of the three input blocks alone. The input windows
  are only read, so each holds its block at every point, whether a fetch happened there or not (the second and third
  operands are fetched once, their block index never moving). From these the library's frame run gives termination
  without fault, the result array as the blocks written back, and every other unscoped buffer as the region found
  it — in particular the arguments unchanged.
-/
import proofs.«128705_j11227044512450_1_alg».proof.Proof.Gen.KernelIdeal.Launch
import proofs.«128705_j11227044512450_1_alg».proof.Proof.Gen.KernelIdeal.Skeleton
import proofs.«128705_j11227044512450_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch contents rewritten by the host prefix, in order. -/
abbrev atEntry (c : Dev nD) (b : Ref sig .tc) : Buf (Elt F) ((c : Thread nD τ).loc b) :=
  StableHlo.after hostOps0 (fun b => m (c, b)) b

/-- No operation of the prefix allocates a buffer. -/
theorem prefix_allocates_nothing : (hostOps0 : List (HloOp τ sig (Elt F))).Forall fun op => op.fresh = ∅ := by
  simp only [List.Forall]; repeat' constructor

/-- @main is the host prefix and then the region, the region entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- A buffer that is the result of no operation of the prefix is found as launched. Each operation writes exactly
    its result buffer, the five-operand concatenations included, and the results are references other than `b`. -/
local macro "not_a_prefix_result" : tactic => `(tactic|
  (refine StableHlo.after_of_forall_not_mem (b := Proc.devRef .tc _) _ _ (List.forall_iff_forall_mem.mp ?_)
   simp only [hostOps0, List.Forall, StableHlo.nullary_writes, StableHlo.unary_writes, StableHlo.binary_writes,
     StableHlo.reshape_writes, StableHlo.nary_writes, Finset.mem_singleton]
   repeat' apply And.intro
   all_goals exact StableHlo.devRef_ne_of_ne (by decide)))

theorem atEntry_arg0 (c : Dev nD) : atEntry m c main_arg0 = m ((c : Thread nD τ).loc main_arg0) := by not_a_prefix_result
theorem atEntry_arg1 (c : Dev nD) : atEntry m c main_arg1 = m ((c : Thread nD τ).loc main_arg1) := by not_a_prefix_result
theorem atEntry_arg2 (c : Dev nD) : atEntry m c main_arg2 = m ((c : Thread nD τ).loc main_arg2) := by not_a_prefix_result
theorem atEntry_arg3 (c : Dev nD) : atEntry m c main_arg3 = m ((c : Thread nD τ).loc main_arg3) := by not_a_prefix_result
theorem atEntry_arg4 (c : Dev nD) : atEntry m c main_arg4 = m ((c : Thread nD τ).loc main_arg4) := by not_a_prefix_result
theorem atEntry_arg5 (c : Dev nD) : atEntry m c main_arg5 = m ((c : Thread nD τ).loc main_arg5) := by not_a_prefix_result
theorem atEntry_arg6 (c : Dev nD) : atEntry m c main_arg6 = m ((c : Thread nD τ).loc main_arg6) := by not_a_prefix_result
theorem atEntry_arg7 (c : Dev nD) : atEntry m c main_arg7 = m ((c : Thread nD τ).loc main_arg7) := by not_a_prefix_result
theorem atEntry_arg8 (c : Dev nD) : atEntry m c main_arg8 = m ((c : Thread nD τ).loc main_arg8) := by not_a_prefix_result
theorem atEntry_arg9 (c : Dev nD) : atEntry m c main_arg9 = m ((c : Thread nD τ).loc main_arg9) := by not_a_prefix_result

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, for any proof data whose array is the
    region-entry contents and whose body leaves the block in place: the window is never idle and never clipped, and
    where it was not fetched its block index has not moved since the last fetch. One statement per input window
    (the block's index type is the window's own). -/
theorem x_holds_block {c : Dev nD} (dat : Dat τ (Elt F) Unit ℕ (UR sig nD τ) ℕ cfg0 c)
    (hA : dat.A 0 = atEntry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem sel_holds_block {c : Dev nD} (dat : Dat τ (Elt F) Unit ℕ (UR sig nD τ) ℕ cfg0 c)
    (hA : dat.A 1 = atEntry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem bias_holds_block {c : Dev nD} (dat : Dat τ (Elt F) Unit ℕ (UR sig nD τ) ℕ cfg0 c)
    (hA : dat.A 2 = atEntry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)

/-! ## What the body leaves in the result's staging buffer -/

abbrev wholeX : Rect S1x2048x5 := Rect.unit (s := S1x2048x5) ![0, 0, 0] S1x2048x5.size inb_S1x2048x5_S1x2048x5_0_0_0
abbrev wholeSel : Rect S5x640 := Rect.unit (s := S5x640) ![0, 0] S5x640.size inb_S5x640_S5x640_0_0
abbrev wholeBias : Rect S1x640 := Rect.unit (s := S1x640) ![0, 0] S1x640.size inb_S1x640_S1x640_0_0
abbrev wholeOut : Rect S1x2048x640 := Rect.unit (s := S1x2048x640) ![0, 0, 0] S1x2048x640.size inb_S1x2048x640_S1x2048x640_0_0_0

/-- The result's staging buffer after the body, from the three input blocks: its one store, of the body's value of
    the three loads, over the whole buffer. -/
def bodyOut (x0 : Vec F S1x2048x5 .f32) (x1 : Vec F S5x640 .f32) (x2 : Vec F S1x640 .f32) : Vec F S1x2048x640 .f32 :=
  View.canon [⟨wholeOut, k0_pay1 (View.ld x0 wholeX) (View.ld x1 wholeSel) (View.ld x2 wholeBias)⟩]

/-- The one store covers the buffer. -/
theorem store_covers (p0 : Vec F S1x2048x640 .f32) (y : S1x2048x640.Idx) :
    ∃ pc ∈ ([⟨wholeOut, p0⟩] : List (View.Piece (Elt F) S1x2048x640 .f32)), y ∈ pc.1.set :=
  View.cover_of_tiled [⟨wholeOut, p0⟩] S1x2048x640.size (by rfl) y

/-! ## The body's triple -/

set_option maxHeartbeats 1000000 in
/-- The body on whole staging memrefs — the inputs' at contents `x0`, `x1`, `x2`, the result's at anything — runs to a
    continuation that holds the inputs' as they were and the result's at `bodyOut` of them. (The body also loads the
    result's buffer before storing into it and uses nothing of what it read.) -/
theorem body_triple (c : Dev nD) (E : Set ℕ) (arg1 : Memref sig .tc .vmem S1x2048x5 .f32) (harg1 : arg1.IsWhole)
    (arg2 : Memref sig .tc .vmem S5x640 .f32) (harg2 : arg2.IsWhole) (arg3 : Memref sig .tc .vmem S1x640 .f32) (harg3 : arg3.IsWhole)
    (arg4 : Memref sig .tc .vmem S1x2048x640 .f32) (harg4 : arg4.IsWhole) (i : grid0.Coords)
    (x0 : Vec F S1x2048x5 .f32) (x1 : Vec F S5x640 .f32) (x2 : Vec F S1x640 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (bodyOut x0 x1 x2)) -∗ K ⟨⟩))
      ⊢ wp frame (wpE (defs₀ (F := F)) Variants.none c none) E (cc0__dense_mlp_kernel i arg1 harg1 arg2 harg2 arg3 harg3 arg4 harg4) K := by
  simp only [cc0__dense_mlp_kernel_eq_skeleton]; unfold cc0__dense_mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The pipeline's proof data -/

/-- The proof data on core `c`: the arrays as the region finds them; after the body at point `t` each input's buffer at
    its block and the result's at `bodyOut` of the three blocks; the invariant the scoped rest and the generator register,
    untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => bodyOut (blockAt m c 0 t) (blockAt m c 1 t) (blockAt m c 2 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after_x (c : Dev nD) (t : Fin cfg0.N) : (dats m 0 c).after 0 t = blockAt m c 0 t := by dsimp only [dats]
theorem after_sel (c : Dev nD) (t : Fin cfg0.N) : (dats m 0 c).after 1 t = blockAt m c 1 t := by dsimp only [dats]
theorem after_bias (c : Dev nD) (t : Fin cfg0.N) : (dats m 0 c).after 2 t = blockAt m c 2 t := by dsimp only [dats]
theorem after_out (c : Dev nD) (t : Fin cfg0.N) :
    (dats m 0 c).after 3 t = bodyOut (blockAt m c 0 t) (blockAt m c 1 t) (blockAt m c 2 t) := by dsimp only [dats]

theorem before_x (c : Dev nD) (t : Fin cfg0.N) (d) : (dats m 0 c).before 0 t d = blockAt m c 0 t :=
  x_holds_block m (dats m 0 c) (dats_A m c 0) (after_x m c) t d
theorem before_sel (c : Dev nD) (t : Fin cfg0.N) (d) : (dats m 0 c).before 1 t d = blockAt m c 1 t :=
  sel_holds_block m (dats m 0 c) (dats_A m c 1) (after_sel m c) t d
theorem before_bias (c : Dev nD) (t : Fin cfg0.N) (d) : (dats m 0 c).before 2 t d = blockAt m c 2 t :=
  bias_holds_block m (dats m 0 c) (dats_A m c 2) (after_bias m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and the core's
    `owes` pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_sel, before_bias]
  rw [show (dats m 0 c).Φ t.succ = (dats m 0 c).Φ t.castSucc from rfl,
    show (dats m 0 c).owesAt () t.succ = (dats m 0 c).owesAt () t.castSucc from rfl,
    after_x, after_sel, after_bias, after_out]
  iintro ⟨HΦ, Ho, ⟨%d0, H0⟩, ⟨%d1, H1⟩, ⟨%d2, H2⟩, ⟨%d3, H3⟩⟩
  iapply (body_triple c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates, and every final state has every
    array of the pipeline at what the library computes from the proof data and every other unscoped buffer as the region
    found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := dats_A m) (hΦ := fun _ _ => rfl)

/-- Each argument array is a buffer no window stages, so a final state of the run has it as the region found it, which
    is as launched. -/
theorem args_of_post (r : PUnit × MemSt nD τ sig (Elt F)) (h : Pipeline.FramePost cfgs (dats m) 0 (atEntry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨((h c).2 main_arg0 (Pipeline.mem_restRefs_of main_arg0 (by decide) (by decide))).trans (atEntry_arg0 m c),
   ((h c).2 main_arg1 (Pipeline.mem_restRefs_of main_arg1 (by decide) (by decide))).trans (atEntry_arg1 m c),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c),
   ((h c).2 main_arg8 (Pipeline.mem_restRefs_of main_arg8 (by decide) (by decide))).trans (atEntry_arg8 m c),
   ((h c).2 main_arg9 (Pipeline.mem_restRefs_of main_arg9 (by decide) (by decide))).trans (atEntry_arg9 m c)⟩

/-- The program runs to the end, faults nowhere, and leaves its argument arrays unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => args_of_post m r h c) (run_main m ρ)

end Cert.KernelIdeal.Region

end
-- ==== Proof.Spec.lean ====
/-
  What both programs compute, as one function of the argument arrays, and the law that joins their two spellings.

  The arguments are `x : [32, 2048, 5]`, five weight rows and five bias rows of length 128 (stream `s` of the five
  uses `W s` and `B s`; the second and third streams share one pair) and a table `O : [5, 128]`. Stream `s` at batch `b`,
  step `r`, feature `e` is `(x[b, r, s] · W s [e] + B s [e]) + O[s, e]`. The five streams are stacked on a trailing axis, the
  batch and step axes are exchanged, and the [2048, 32, 128, 5] array is re-read row-major as [32, 2048, 640]. So the result
  at `(b, r, k)` — row `L = 2048 b + r` of 65536 rows, column `k` — is stream `k % 5`, feature `k / 5`, of the input row at step
  `L / 32` and batch `L % 32`.

  The kernel computes the same entry as a sum over all five streams of `x[·, ·, j] · (W j [e] · δ j s)`, `δ` the 5 × 5
  identity, plus `B s [e] + O[s, e]` added as one term. On the extended reals `u · 0 = 0` and `u · 1 = u` for EVERY `u`
  (infinite ones included), so the four off-diagonal products vanish and the diagonal one is `x · W`; what remains is
  the associativity of addition. No finiteness of the inputs is needed.
-/
import Idealize.ShloMosaic.PureOps.Ideal
import Idealize.ShloMosaic.Lib.ValueIdx

noncomputable section

namespace Cert.Streams

open Idealize.ShloMosaic Idealize.ShloMosaic.ValueIdx

/-! ## The row and column arithmetic -/

/-- The batch of the input row that output row `(b, r)` reads. -/
def srcBatch (b : Fin 32) (r : Fin 2048) : Fin 32 := ⟨(b.val * 2048 + r.val) % 32, Nat.mod_lt _ (by decide)⟩
/-- The step of the input row that output row `(b, r)` reads. -/
def srcStep (b : Fin 32) (r : Fin 2048) : Fin 2048 :=
  ⟨(b.val * 2048 + r.val) / 32, by have := b.isLt; have := r.isLt; omega⟩
/-- The stream output column `k` belongs to. -/
def streamOf (k : Fin 640) : Fin 5 := ⟨k.val % 5, Nat.mod_lt _ (by decide)⟩
/-- The feature output column `k` belongs to. -/
def featOf (k : Fin 640) : Fin 128 := ⟨k.val / 5, by have := k.isLt; omega⟩

/-! ## The result -/

/-- The result at `(b, r, k)`. -/
def outAt (x : (⟨3, ![32, 2048, 5]⟩ : Shape).Idx → EReal) (W B : Fin 5 → ((⟨1, ![128]⟩ : Shape).Idx → EReal))
    (O : (⟨2, ![5, 128]⟩ : Shape).Idx → EReal) (b : Fin 32) (r : Fin 2048) (k : Fin 640) : EReal :=
  (x (ix3 (srcBatch b r) (srcStep b r) (streamOf k)) * W (streamOf k) (ix1 (featOf k)) + B (streamOf k) (ix1 (featOf k)))
    + O (ix2 (streamOf k) (featOf k))

/-- The result array. -/
def out (x : (⟨3, ![32, 2048, 5]⟩ : Shape).Idx → EReal) (W B : Fin 5 → ((⟨1, ![128]⟩ : Shape).Idx → EReal))
    (O : (⟨2, ![5, 128]⟩ : Shape).Idx → EReal) : (⟨3, ![32, 2048, 640]⟩ : Shape).Idx → EReal :=
  fun j => outAt x W B O (j 0) (j 1) (j 2)

theorem out_ix3 (x : (⟨3, ![32, 2048, 5]⟩ : Shape).Idx → EReal) (W B : Fin 5 → ((⟨1, ![128]⟩ : Shape).Idx → EReal))
    (O : (⟨2, ![5, 128]⟩ : Shape).Idx → EReal) (b : Fin 32) (r : Fin 2048) (k : Fin 640) :
    out x W B O (ix3 b r k) = outAt x W B O b r k := rfl

/-! ## The law -/

/-- Entry `(j, s)` of the 5 × 5 identity, as an extended real. -/
def delta (j s : Fin 5) : EReal := if j = s then 1 else 0

/-- A sum over the five streams in which stream `j`'s term carries the factor `δ j s` is stream `s`'s term; with the two
    constants added as one term or one after the other. -/
theorem selected_sum (a w : Fin 5 → EReal) (p q : EReal) (s : Fin 5) :
    ((((a 0 * (w 0 * delta 0 s) + a 1 * (w 1 * delta 1 s)) + a 2 * (w 2 * delta 2 s)) + a 3 * (w 3 * delta 3 s))
        + a 4 * (w 4 * delta 4 s)) + (p + q)
      = (a s * w s + p) + q := by
  fin_cases s <;> simp [delta, add_assoc]

end Cert.Streams

end
-- ==== Proof.LibNary5.lean ====
/-
  A host operation over FIVE operand references (`StableHlo.nary ![x, a, b, c, d] y f`: a concatenation or a stack of five
  arrays), read at its result buffer with each operand's contents AT ITS OWN REFERENCE. The general
  `StableHlo.nary_result` leaves the operands as `fun k => V ↑(![x, a, b, c, d] k)`: under the binder the reference is no
  literal, so the per-operation result lemmas cannot go on rewriting the operands' own contents. Here the family is
  spelled out with `Fin.cons`, after which they can. The library has the four-operand case; this is the same statement at
  five, in both forms the library keeps (for `rw`, and with the result reference un-indexed for `simp`).
-/
import Idealize.ShloMosaic.Lib.StableHlo.Run

noncomputable section

namespace Idealize.ShloMosaic.StableHlo

variable {τ : Topo} {sig : RefSig} {Val : EltTy → Type}
variable {x a b c d y : Ref sig .tc}

/-- The result of a five-operand operation at its own result buffer: `f` of the five operands' contents, each read at
    its reference. -/
theorem nary5_result
    (f : ((k : Fin 5) → ((![x, a, b, c, d] : Fin 5 → Ref sig .tc) k).ty.Contents Val) → y.ty.Contents Val) (hxs hy)
    (V : Valuation τ sig Val) :
    (nary (τ := τ) ![x, a, b, c, d] y f hxs hy).result V (Proc.devRef .tc y)
      = f (Fin.cons (V (Proc.devRef .tc x)) (Fin.cons (V (Proc.devRef .tc a)) (Fin.cons (V (Proc.devRef .tc b))
          (Fin.cons (V (Proc.devRef .tc c)) (Fin.cons (V (Proc.devRef .tc d)) (fun i => i.elim0)))))) := by
  rw [nary_result]; congr 1; funext k; fin_cases k <;> rfl

/-- The same with the result reference un-indexed, for one `simp` pass over a long line of operations. -/
theorem nary5_result'
    (f : ((k : Fin 5) → ((![x, a, b, c, d] : Fin 5 → Ref sig .tc) k).ty.Contents Val) → y.ty.Contents Val) (hxs hy)
    (V : Valuation τ sig Val) :
    (nary (τ := τ) ![x, a, b, c, d] y f hxs hy).result V (no_index (Proc.devRef .tc y))
      = f (Fin.cons (V (Proc.devRef .tc x)) (Fin.cons (V (Proc.devRef .tc a)) (Fin.cons (V (Proc.devRef .tc b))
          (Fin.cons (V (Proc.devRef .tc c)) (Fin.cons (V (Proc.devRef .tc d)) (fun i => i.elim0)))))) :=
  nary5_result f hxs hy V

end Idealize.ShloMosaic.StableHlo

end
-- ==== Proof.LibStack5.lean ====
/-
  Five arrays of ONE shape whose extent along an axis is 1, concatenated along that axis (`jnp.stack` of five arrays on
  a new axis prints so), read at an index: the piece the index's coordinate on that axis names, at the index with the
  same other coordinates. The library's `concatenate_ofFn_unit_apply` says this for any number of pieces given as
  `List.ofFn`; a printed concatenation is a literal list, and the literal list of five is that `List.ofFn` by computation.
-/
import Idealize.ShloMosaic.Lib.Pipeline.Value

noncomputable section

namespace Idealize.ShloMosaic

variable {α : Type}

/-- A concatenation of five unit-extent pieces of shape `s₁` along axis `a`, at an index `j` whose coordinate on `a` is
    `n`: piece `n`, at any index `i` of `s₁` that agrees with `j` off the axis. -/
theorem concatenate_five_unit_apply {t s₁ : Shape} (a : Fin t.rank) (u0 u1 u2 u3 u4 : s₁.Idx → α)
    (h : Shape.Concatenates [s₁, s₁, s₁, s₁, s₁] t a)
    (hr : s₁.rank = t.rank) (h1 : s₁.size (a.cast hr.symm) = 1) (j : t.Idx) (n : Fin 5) (hn : (j a).val = n.val)
    (i : s₁.Idx) (hi : ∀ b : Fin s₁.rank, b.cast hr ≠ a → (i b).val = (j (b.cast hr)).val) :
    concatenate t a [⟨s₁, u0⟩, ⟨s₁, u1⟩, ⟨s₁, u2⟩, ⟨s₁, u3⟩, ⟨s₁, u4⟩] h j
      = (![u0, u1, u2, u3, u4] : Fin 5 → (s₁.Idx → α)) n i :=
  concatenate_ofFn_unit_apply a (![u0, u1, u2, u3, u4] : Fin 5 → (s₁.Idx → α)) h hr h1 j n hn i hi

end Idealize.ShloMosaic

end
-- ==== Proof.Operands.lean ====
/-
  The region's three operands, as the host prefix leaves them, read at one entry (at the extended reals).

  * The first operand is `x` with batch and step exchanged and the [2048, 32, 5] array re-read row-major as [32, 2048, 5]:
    row `(b, r)` is the input row at step `(2048 b + r) / 32`, batch `(2048 b + r) % 32`.
  * The second is the selector matrix [5, 640]: the five weight rows laid side by side as the columns of a [128, 5]
    matrix, transposed, each entry `W j [e]` multiplied by every entry of row `j` of the 5 × 5 identity (an `iota` compared
    with an `iota`, converted), and the [5, 128, 5] product re-read as [5, 640]: entry `(j, k)` is `W j [k / 5] · δ j (k % 5)`.
  * The third is the bias row [1, 640]: `B s + O[s, ·]` for the five streams, again side by side as the columns of a
    [128, 5] matrix, re-read as one row: entry `(0, k)` is `B s [e] + O[s, e]` at `s = k % 5`, `e = k / 5`.
-/
import proofs.«128705_j11227044512450_1_alg».proof.Proof.KernelIdealRegion
import proofs.«128705_j11227044512450_1_alg».proof.Proof.Spec
import proofs.«128705_j11227044512450_1_alg».proof.Proof.LibNary5
import proofs.«128705_j11227044512450_1_alg».proof.Proof.LibStack5
import Idealize.ShloMosaic.Lib.ValueIdx
import Idealize.ShloMosaic.Lib.ValueLayout
import Idealize.ShloMosaic.Lib.Pipeline.Value

noncomputable section

namespace Cert.KernelIdeal.Streams

open Idealize.ShloMosaic Idealize.ShloMosaic.TcCoe Idealize.ShloMosaic.ValueIdx Idealize.SL.Sem
open Cert.KernelIdeal Cert.KernelIdeal.Gen Cert.KernelIdeal.Region Cert.Streams

/-! ## The operands as terms of the arguments -/

/-- Five rows of length 128 laid side by side as the columns of a [128, 5] matrix. -/
def columns (u0 u1 u2 u3 u4 : S128.Idx → EReal) : S128x5.Idx → EReal :=
  concatenate S128x5 1 [⟨S128x1, broadcastInDim S128x1 ![0] bcast_S128_S128x1_0 u0⟩, ⟨S128x1, broadcastInDim S128x1 ![0] bcast_S128_S128x1_0 u1⟩,
    ⟨S128x1, broadcastInDim S128x1 ![0] bcast_S128_S128x1_0 u2⟩, ⟨S128x1, broadcastInDim S128x1 ![0] bcast_S128_S128x1_0 u3⟩,
    ⟨S128x1, broadcastInDim S128x1 ![0] bcast_S128_S128x1_0 u4⟩] concatenates_S128x1_S128x1_S128x1_S128x1_S128x1_S128x5_d1

/-- The 5 × 5 identity, as the program makes it: row number equal to column number, converted to a float. -/
def eye : S5x5.Idx → EReal :=
  uitofp (F := Ideal) .f32 (cmpi .eq (addi (iotaInDim S5x5 32 0) (broadcastInDim S5x5 ![] bcast_S_S5x5 (constantI S_ 32 0#32))) (iotaInDim S5x5 32 1))

/-- The first operand: `x` with its first two axes exchanged, re-read as [32, 2048, 5]. -/
def xRows (x : S32x2048x5.Idx → EReal) : S32x2048x5.Idx → EReal :=
  shapeCast S32x2048x5 (transpose S2048x32x5 [1, 0, 2] x transposes_S32x2048x5_S2048x32x5_1_0_2) shapeCasts_S2048x32x5_S32x2048x5

/-- The second operand: the selector matrix. -/
def selector (w1 w3 w5 w7 : S128.Idx → EReal) : S5x640.Idx → EReal :=
  shapeCast S5x640 (mulf (F := Ideal) (φ := .f32)
    (broadcastInDim S5x128x5 ![0, 1, 2] bcast_S5x128x1_S5x128x5_0_1_2 (broadcastInDim S5x128x1 ![0, 1] bcast_S5x128_S5x128x1_0_1
      (transpose S5x128 [1, 0] (columns w1 w3 w3 w5 w7) transposes_S128x5_S5x128_1_0)))
    (broadcastInDim S5x128x5 ![0, 1, 2] bcast_S5x1x5_S5x128x5_0_1_2 (broadcastInDim S5x1x5 ![0, 2] bcast_S5x5_S5x1x5_0_2 eye)))
    shapeCasts_S5x128x5_S5x640

/-- Row `s` of the table `O`, as a vector of length 128. -/
def tableRow (o : S5x128.Idx → EReal) (s : Nat) (h : S5x128.Slices ![s, 0] S1x128) : S128.Idx → EReal :=
  shapeCast S128 (extractStridedSlice S1x128 ![s, 0] o h) shapeCasts_S1x128_S128

/-- The third operand: the bias row. -/
def biasRow (b2 b4 b6 b8 : S128.Idx → EReal) (o : S5x128.Idx → EReal) : S1x640.Idx → EReal :=
  shapeCast S1x640 (columns (addf (F := Ideal) (φ := .f32) b2 (tableRow o 0 slices_S5x128_S1x128_0_0))
    (addf (F := Ideal) (φ := .f32) b4 (tableRow o 1 slices_S5x128_S1x128_1_0)) (addf (F := Ideal) (φ := .f32) b4 (tableRow o 2 slices_S5x128_S1x128_2_0))
    (addf (F := Ideal) (φ := .f32) b6 (tableRow o 3 slices_S5x128_S1x128_3_0)) (addf (F := Ideal) (φ := .f32) b8 (tableRow o 4 slices_S5x128_S1x128_4_0)))
    shapeCasts_S128x5_S1x640

variable (m : (ℓ : Loc nD τ sig) → Buf (Elt Ideal) ℓ)

/-- A buffer's contents after the host prefix: every operation's result at its own buffer is its function of its
    operands' contents, and at any other buffer what was there. -/
local macro "prefix_results" : tactic => `(tactic|
  (simp (disch := decide) only [StableHlo.after_cons, StableHlo.after_nil,
    StableHlo.nullary_result', StableHlo.unary_result', StableHlo.binary_result', StableHlo.reshape_result', StableHlo.nary5_result',
    StableHlo.nullary_result_ne', StableHlo.unary_result_ne', StableHlo.binary_result_ne', StableHlo.reshape_result_ne',
    StableHlo.nary_result_ne']))

set_option maxRecDepth 8192 in
set_option maxHeartbeats 4000000 in
theorem entry_x (c : Dev nD) :
    (atEntry m c main_v42 : S32x2048x5.Idx → EReal) = xRows (m ((c : Thread nD τ).loc main_arg0)) := by
  dsimp only [atEntry, hostOps0]
  prefix_results
  rfl

set_option maxRecDepth 8192 in
set_option maxHeartbeats 4000000 in
theorem entry_sel (c : Dev nD) :
    (atEntry m c main_v33 : S5x640.Idx → EReal)
      = selector (m ((c : Thread nD τ).loc main_arg1)) (m ((c : Thread nD τ).loc main_arg3)) (m ((c : Thread nD τ).loc main_arg5))
          (m ((c : Thread nD τ).loc main_arg7)) := by
  dsimp only [atEntry, hostOps0]
  prefix_results
  rfl

set_option maxRecDepth 8192 in
set_option maxHeartbeats 4000000 in
theorem entry_bias (c : Dev nD) :
    (atEntry m c main_v40 : S1x640.Idx → EReal)
      = biasRow (m ((c : Thread nD τ).loc main_arg2)) (m ((c : Thread nD τ).loc main_arg4)) (m ((c : Thread nD τ).loc main_arg6))
          (m ((c : Thread nD τ).loc main_arg8)) (m ((c : Thread nD τ).loc main_arg9)) := by
  dsimp only [atEntry, hostOps0]
  prefix_results
  rfl

/-! ## The operands at an entry -/

/-- The first operand at `(b, r, j)`. -/
theorem xRows_apply (x : S32x2048x5.Idx → EReal) (b : Fin 32) (r : Fin 2048) (j : Fin 5) :
    xRows x (ix3 b r j) = x (ix3 (srcBatch b r) (srcStep b r) j) := by
  have hb := b.isLt; have hr := r.isLt; have hj := j.isLt
  unfold xRows
  rw [shapeCast_apply _ shapeCasts_S2048x32x5_S32x2048x5 (ix3 b r j) (ix3 (srcStep b r) (srcBatch b r) j)
    (by rw [Shape.rowMajor_val_three, Shape.rowMajor_val_three]
        show ((b.val * 2048 + r.val) / 32 * 32 + (b.val * 2048 + r.val) % 32) * 5 + j.val = (b.val * 2048 + r.val) * 5 + j.val
        omega)]
  exact transpose_apply [1, 0, 2] x transposes_S32x2048x5_S2048x32x5_1_0_2 _ (ix3 (srcBatch b r) (srcStep b r) j) (fun a =>
    match a with
    | ⟨0, _⟩ => rfl
    | ⟨1, _⟩ => rfl
    | ⟨2, _⟩ => rfl)

/-- Five rows side by side, at row `e` and column `s`: row `s` at `e`. -/
theorem columns_apply (u0 u1 u2 u3 u4 : S128.Idx → EReal) (e : Fin 128) (s : Fin 5) :
    columns u0 u1 u2 u3 u4 (ix2 e s) = (![u0, u1, u2, u3, u4] : Fin 5 → (S128.Idx → EReal)) s (ix1 e) := by
  unfold columns
  rw [concatenate_five_unit_apply (t := S128x5) (s₁ := S128x1) (1 : Fin 2) _ _ _ _ _ _ rfl rfl (ix2 e s) s rfl (ix2 e (0 : Fin 1))
    (fun bx hbx => by
      match bx with
      | ⟨0, _⟩ => rfl
      | ⟨1, _⟩ => exact absurd rfl hbx)]
  have hcol : ∀ u : S128.Idx → EReal, broadcastInDim S128x1 ![0] bcast_S128_S128x1_0 u (ix2 e (0 : Fin 1)) = u (ix1 e) := fun u =>
    broadcastInDim_apply _ bcast_S128_S128x1_0 u (ix2 e (0 : Fin 1)) (ix1 e) (fun a =>
      match a with
      | ⟨0, _⟩ => by show e.val = if (128 : Nat) = 1 then 0 else e.val; rw [if_neg (by decide)])
  fin_cases s <;> exact hcol _

/-- The identity's entries. -/
theorem eye_apply (j s : Fin 5) : eye (ix2 j s) = delta j s := by
  have hw : IntOp.cmpi .eq (IntOp.addi (BitVec.ofNat 32 j.val) 0#32) (BitVec.ofNat 32 s.val) = if j = s then 1#1 else 0#1 := by
    fin_cases j <;> fin_cases s <;> rfl
  show (((IntOp.cmpi .eq (IntOp.addi (BitVec.ofNat 32 j.val) 0#32) (BitVec.ofNat 32 s.val)).toNat : ℝ) : EReal) = delta j s
  rw [hw]
  unfold delta
  split <;> simp

/-- The selector matrix at `(j, k)`. -/
theorem selector_apply (w1 w3 w5 w7 : S128.Idx → EReal) (j : Fin 5) (k : Fin 640) :
    selector w1 w3 w5 w7 (ix2 j k)
      = (![w1, w3, w3, w5, w7] : Fin 5 → (S128.Idx → EReal)) j (ix1 (featOf k)) * delta j (streamOf k) := by
  have hj := j.isLt; have hk := k.isLt
  unfold selector
  rw [shapeCast_apply _ shapeCasts_S5x128x5_S5x640 (ix2 j k) (ix3 j (featOf k) (streamOf k))
    (by rw [Shape.rowMajor_val_three, Shape.rowMajor_val_two]
        show (j.val * 128 + k.val / 5) * 5 + k.val % 5 = j.val * 640 + k.val
        omega)]
  rw [mulf_apply]
  congr 1
  · rw [broadcastInDim_apply _ bcast_S5x128x1_S5x128x5_0_1_2 _ (ix3 j (featOf k) (streamOf k)) (ix3 j (featOf k) (0 : Fin 1)) (fun a =>
        match a with
        | ⟨0, _⟩ => by show j.val = if (5 : Nat) = 1 then 0 else j.val; rw [if_neg (by decide)]
        | ⟨1, _⟩ => by show (featOf k).val = if (128 : Nat) = 1 then 0 else (featOf k).val; rw [if_neg (by decide)]
        | ⟨2, _⟩ => by show 0 = if (1 : Nat) = 1 then 0 else (streamOf k).val; rw [if_pos rfl]),
      broadcastInDim_apply _ bcast_S5x128_S5x128x1_0_1 _ (ix3 j (featOf k) (0 : Fin 1)) (ix2 j (featOf k)) (fun a =>
        match a with
        | ⟨0, _⟩ => by show j.val = if (5 : Nat) = 1 then 0 else j.val; rw [if_neg (by decide)]
        | ⟨1, _⟩ => by show (featOf k).val = if (128 : Nat) = 1 then 0 else (featOf k).val; rw [if_neg (by decide)]),
      transpose_apply [1, 0] _ transposes_S128x5_S5x128_1_0 (ix2 j (featOf k)) (ix2 (featOf k) j) (fun a =>
        match a with
        | ⟨0, _⟩ => rfl
        | ⟨1, _⟩ => rfl),
      columns_apply]
  · rw [broadcastInDim_apply _ bcast_S5x1x5_S5x128x5_0_1_2 _ (ix3 j (featOf k) (streamOf k)) (ix3 j (0 : Fin 1) (streamOf k)) (fun a =>
        match a with
        | ⟨0, _⟩ => by show j.val = if (5 : Nat) = 1 then 0 else j.val; rw [if_neg (by decide)]
        | ⟨1, _⟩ => by show 0 = if (1 : Nat) = 1 then 0 else (featOf k).val; rw [if_pos rfl]
        | ⟨2, _⟩ => by show (streamOf k).val = if (5 : Nat) = 1 then 0 else (streamOf k).val; rw [if_neg (by decide)]),
      broadcastInDim_apply _ bcast_S5x5_S5x1x5_0_2 _ (ix3 j (0 : Fin 1) (streamOf k)) (ix2 j (streamOf k)) (fun a =>
        match a with
        | ⟨0, _⟩ => by show j.val = if (5 : Nat) = 1 then 0 else j.val; rw [if_neg (by decide)]
        | ⟨1, _⟩ => by show (streamOf k).val = if (5 : Nat) = 1 then 0 else (streamOf k).val; rw [if_neg (by decide)]),
      eye_apply]

/-- Row `s` of the table at `e`. -/
theorem tableRow_apply (o : S5x128.Idx → EReal) (s : Nat) (h : S5x128.Slices ![s, 0] S1x128) (sf : Fin 5) (hs : sf.val = s) (e : Fin 128) :
    tableRow o s h (ix1 e) = o (ix2 sf e) := by
  unfold tableRow
  rw [shapeCast_1a_a_apply, slice2_axis0_apply s o h (0 : Fin 1) e sf (by rw [hs]; rfl)]

/-- The bias row at `(0, k)`. -/
theorem biasRow_apply (b2 b4 b6 b8 : S128.Idx → EReal) (o : S5x128.Idx → EReal) (k : Fin 640) :
    biasRow b2 b4 b6 b8 o (ix2 (0 : Fin 1) k)
      = (![b2, b4, b4, b6, b8] : Fin 5 → (S128.Idx → EReal)) (streamOf k) (ix1 (featOf k)) + o (ix2 (streamOf k) (featOf k)) := by
  have hk := k.isLt
  unfold biasRow
  rw [shapeCast_apply _ shapeCasts_S128x5_S1x640 (ix2 (0 : Fin 1) k) (ix2 (featOf k) (streamOf k))
    (by rw [Shape.rowMajor_val_two, Shape.rowMajor_val_two]
        show k.val / 5 * 5 + k.val % 5 = 0 * 640 + k.val
        omega)]
  rw [columns_apply]
  generalize streamOf k = s
  fin_cases s
  · exact (addf_apply _ _ _).trans (congrArg _ (tableRow_apply o 0 _ (0 : Fin 5) rfl _))
  · exact (addf_apply _ _ _).trans (congrArg _ (tableRow_apply o 1 _ (1 : Fin 5) rfl _))
  · exact (addf_apply _ _ _).trans (congrArg _ (tableRow_apply o 2 _ (2 : Fin 5) rfl _))
  · exact (addf_apply _ _ _).trans (congrArg _ (tableRow_apply o 3 _ (3 : Fin 5) rfl _))
  · exact (addf_apply _ _ _).trans (congrArg _ (tableRow_apply o 4 _ (4 : Fin 5) rfl _))

end Cert.KernelIdeal.Streams

end
-- ==== Proof.Payload.lean ====
/-
  The value the kernel's body stores, read at one entry.

  The body loads a [1, 2048, 5] block `v0`, a [5, 640] matrix `v2` and a [1, 640] row `v4`, and stores the [1, 2048, 640] value
  whose entry `(0, r, k)` is `v0[0, r, 0] · v2[0, k] + … + v0[0, r, 4] · v2[4, k]`, summed left to right, plus `v4[0, k]`: each
  of the five terms is a column of the block (a [2048, 1] slice broadcast along the columns) times a row of the matrix
  (a [1, 640] slice broadcast along the rows).
-/
import proofs.«128705_j11227044512450_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Streams

open Idealize.ShloMosaic Idealize.ShloMosaic.ValueIdx Cert.KernelIdeal Cert.KernelIdeal.Gen

/-- An `[a, 1]` column broadcast to `[a, b]` reads, at `(p, c)`, the column at row `p`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- One of the five terms: column `j` of the block times row `j` of the matrix, at `(r, k)`. -/
theorem term_apply (v1 : S2048x5.Idx → EReal) (v3 : S5x640.Idx → EReal) (o : Nat) (j : Fin 5) (hj : j.val = o)
    (h1 : S2048x5.Slices ![0, o] S2048x1) (h3 : S5x640.Slices ![o, 0] S1x640) (r : Fin 2048) (k : Fin 640) :
    mulf (F := Ideal) (φ := .f32)
        (broadcastTo S2048x640 (extractStridedSlice S2048x1 ![0, o] v1 h1) broadcasts_S2048x1_S2048x640)
        (broadcastTo S2048x640 (extractStridedSlice S1x640 ![o, 0] v3 h3) broadcasts_S1x640_S2048x640) (ix2 r k)
      = v1 (ix2 r j) * v3 (ix2 j k) := by
  rw [mulf_apply, broadcastTo_a1_ab_apply (by decide), broadcastTo_1b_ab_apply,
    slice2_axis1_apply o v1 h1 r (0 : Fin 1) j (by rw [hj]; rfl), slice2_axis0_apply o v3 h3 (0 : Fin 1) k j (by rw [hj]; rfl)]

/-- The stored value at `(0, r, k)`. -/
theorem payload_apply (v0 : Vec Ideal S1x2048x5 .f32) (v2 : Vec Ideal S5x640 .f32) (v4 : Vec Ideal S1x640 .f32)
    (r : Fin 2048) (k : Fin 640) :
    k0_pay1 (F := Ideal) v0 v2 v4 (ix3 (0 : Fin 1) r k)
      = ((((v0 (ix3 (0 : Fin 1) r (0 : Fin 5)) * v2 (ix2 (0 : Fin 5) k) + v0 (ix3 (0 : Fin 1) r (1 : Fin 5)) * v2 (ix2 (1 : Fin 5) k))
            + v0 (ix3 (0 : Fin 1) r (2 : Fin 5)) * v2 (ix2 (2 : Fin 5) k)) + v0 (ix3 (0 : Fin 1) r (3 : Fin 5)) * v2 (ix2 (3 : Fin 5) k))
          + v0 (ix3 (0 : Fin 1) r (4 : Fin 5)) * v2 (ix2 (4 : Fin 5) k)) + v4 (ix2 (0 : Fin 1) k) := by
  unfold k0_pay1
  rw [shapeCast_ab_1ab_apply]
  simp only [addf_apply]
  rw [term_apply _ _ 0 (0 : Fin 5) rfl, term_apply _ _ 1 (1 : Fin 5) rfl, term_apply _ _ 2 (2 : Fin 5) rfl,
    term_apply _ _ 3 (3 : Fin 5) rfl, term_apply _ _ 4 (4 : Fin 5) rfl, broadcastTo_1b_ab_apply]
  simp only [shapeCast_1ab_ab_apply, shapeCast_self]

end Cert.KernelIdeal.Streams

end
-- ==== Proof.KernelValue.lean ====
/-
  The idealized kernel's result array after the run is the specification's.

  Grid point `t` is handed block `t` of the row-permuted input (rows `(t, ·)`), the whole selector matrix and the whole bias
  row, and writes back block `t` of the result. Entry `(0, r, k)` of what it stores is the five-term sum of the payload
  with the operands read at their entries: `x` at step and batch of row `(t, r)` times `W j [k / 5] · δ j (k % 5)`, plus
  `B s [e] + O[s, e]`; by the law of the specification this is the result's entry `(t, r, k)`. The 32 blocks tile the
  result array (entry `(b, r, k)` lies in block `b`), so after the run the array is the specification everywhere.
-/
import proofs.«128705_j11227044512450_1_alg».proof.Proof.KernelIdealRegion
import proofs.«128705_j11227044512450_1_alg».proof.Proof.Operands
import proofs.«128705_j11227044512450_1_alg».proof.Proof.Payload
import proofs.«128705_j11227044512450_1_alg».proof.Proof.Spec
import Idealize.ShloMosaic.Lib.ValueIdx
import Idealize.ShloMosaic.Lib.Pipeline.Value

set_option maxRecDepth 16384

noncomputable section

namespace Cert.KernelIdeal.Streams

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region Cert.Streams

variable (m : (ℓ : Loc nD τ sig) → Buf (Elt Ideal) ℓ) (ρ : Dev nD → PrngReg)

/-- The specification at the kernel program's arguments on core `c`. -/
def resultOf (c : Dev nD) : S32x2048x640.Idx → EReal :=
  out (m ((c : Thread nD τ).loc main_arg0))
    ![m ((c : Thread nD τ).loc main_arg1), m ((c : Thread nD τ).loc main_arg3), m ((c : Thread nD τ).loc main_arg3),
      m ((c : Thread nD τ).loc main_arg5), m ((c : Thread nD τ).loc main_arg7)]
    ![m ((c : Thread nD τ).loc main_arg2), m ((c : Thread nD τ).loc main_arg4), m ((c : Thread nD τ).loc main_arg4),
      m ((c : Thread nD τ).loc main_arg6), m ((c : Thread nD τ).loc main_arg8)]
    (m ((c : Thread nD τ).loc main_arg9))

/-! ## The grid and the blocks -/

theorem zero3 : (![0, 0, 0] : Fin 3 → Nat) = fun _ => 0 := funext fun a => by fin_cases a <;> rfl
theorem zero2 : (![0, 0] : Fin 2 → Nat) = fun _ => 0 := funext fun a => by fin_cases a <;> rfl

/-- Grid point `t` as a batch number of the result. -/
def pointRow (t : Fin cfg0.N) : Fin 32 := ⟨t.val, Nat.lt_of_lt_of_eq t.isLt N_0⟩

/-- The printed index maps over the grid: the first operand and the result move with the point along their leading
    axis; the other two operands stay at block 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The three input blocks at a point, at their literal types. -/
abbrev xBlock (c : Dev nD) (t : Fin cfg0.N) : Vec Ideal S1x2048x5 .f32 := blockAt m c 0 t
abbrev selBlock (c : Dev nD) (t : Fin cfg0.N) : Vec Ideal S5x640 .f32 := blockAt m c 1 t
abbrev biasBlock (c : Dev nD) (t : Fin cfg0.N) : Vec Ideal S1x640 .f32 := blockAt m c 2 t

/-- Block `t` of the first operand at `(0, r, j)`: the input row that result row `(t, r)` reads, at `j`. -/
theorem xBlock_apply (c : Dev nD) (t : Fin cfg0.N) (r : Fin 2048) (j : Fin 5) :
    xBlock m c t (ix3 (0 : Fin 1) r j)
      = m ((c : Thread nD τ).loc main_arg0) (ix3 (srcBatch (pointRow t) r) (srcStep (pointRow t) r) j) := by
  obtain ⟨e0, e1, e2, -⟩ := index_facts t
  refine Eq.trans ?_ (xRows_apply (m ((c : Thread nD τ).loc main_arg0)) (pointRow t) r j)
  rw [← entry_x m c]
  show atEntry m c main_v42 (((cfg0.win 0).blk t).view.emb (ix3 (0 : Fin 1) r j)) = atEntry m c main_v42 (ix3 (pointRow t) r j)
  congr 1
  funext a; apply Fin.ext
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 5 + 1 * j.val = j.val; omega

/-- The selector matrix's one block is the whole matrix. -/
theorem selBlock_apply (c : Dev nD) (t : Fin cfg0.N) (j : Fin 5) (k : Fin 640) :
    selBlock m c t (ix2 j k)
      = (![m ((c : Thread nD τ).loc main_arg1), m ((c : Thread nD τ).loc main_arg3), m ((c : Thread nD τ).loc main_arg3),
            m ((c : Thread nD τ).loc main_arg5), m ((c : Thread nD τ).loc main_arg7)] : Fin 5 → (S128.Idx → EReal)) j (ix1 (featOf k))
          * delta j (streamOf k) := by
  obtain ⟨-, -, -, e0, e1, -⟩ := index_facts t
  refine Eq.trans ?_ (selector_apply (m ((c : Thread nD τ).loc main_arg1)) (m ((c : Thread nD τ).loc main_arg3))
    (m ((c : Thread nD τ).loc main_arg5)) (m ((c : Thread nD τ).loc main_arg7)) j k)
  rw [← entry_sel m c]
  show atEntry m c main_v33 (((cfg0.win 1).blk t).view.emb (ix2 j k)) = atEntry m c main_v33 (ix2 j k)
  congr 1
  funext a; apply Fin.ext
  match a with
  | ⟨0, _⟩ => show win0_1.index t (0 : Fin 2) * 5 + 1 * j.val = j.val; omega
  | ⟨1, _⟩ => show win0_1.index t (1 : Fin 2) * 640 + 1 * k.val = k.val; omega

/-- The bias row's one block is the whole row. -/
theorem biasBlock_apply (c : Dev nD) (t : Fin cfg0.N) (k : Fin 640) :
    biasBlock m c t (ix2 (0 : Fin 1) k)
      = (![m ((c : Thread nD τ).loc main_arg2), m ((c : Thread nD τ).loc main_arg4), m ((c : Thread nD τ).loc main_arg4),
            m ((c : Thread nD τ).loc main_arg6), m ((c : Thread nD τ).loc main_arg8)] : Fin 5 → (S128.Idx → EReal)) (streamOf k) (ix1 (featOf k))
          + m ((c : Thread nD τ).loc main_arg9) (ix2 (streamOf k) (featOf k)) := by
  obtain ⟨-, -, -, -, -, e0, e1, -⟩ := index_facts t
  refine Eq.trans ?_ (biasRow_apply (m ((c : Thread nD τ).loc main_arg2)) (m ((c : Thread nD τ).loc main_arg4))
    (m ((c : Thread nD τ).loc main_arg6)) (m ((c : Thread nD τ).loc main_arg8)) (m ((c : Thread nD τ).loc main_arg9)) k)
  rw [← entry_bias m c]
  show atEntry m c main_v40 (((cfg0.win 2).blk t).view.emb (ix2 (0 : Fin 1) k)) = atEntry m c main_v40 (ix2 (0 : Fin 1) k)
  congr 1
  funext a; apply Fin.ext
  match a with
  | ⟨0, _⟩ => show win0_2.index t (0 : Fin 2) * 1 + 1 * 0 = 0; omega
  | ⟨1, _⟩ => show win0_2.index t (1 : Fin 2) * 640 + 1 * k.val = k.val; omega

/-! ## What a point writes back -/

/-- The stored value at `(0, r, k)` at point `t` is the result's entry `(t, r, k)`. -/
theorem stored_entry (c : Dev nD) (t : Fin cfg0.N) (r : Fin 2048) (k : Fin 640) :
    k0_pay1 (F := Ideal) (xBlock m c t) (selBlock m c t) (biasBlock m c t) (ix3 (0 : Fin 1) r k)
      = resultOf m c (ix3 (pointRow t) r k) := by
  rw [payload_apply, xBlock_apply, xBlock_apply, xBlock_apply, xBlock_apply, xBlock_apply,
    selBlock_apply, selBlock_apply, selBlock_apply, selBlock_apply, selBlock_apply, biasBlock_apply]
  unfold resultOf
  rw [out_ix3]
  unfold outAt
  exact selected_sum
    (fun j => m ((c : Thread nD τ).loc main_arg0) (ix3 (srcBatch (pointRow t) r) (srcStep (pointRow t) r) j))
    (fun j => (![m ((c : Thread nD τ).loc main_arg1), m ((c : Thread nD τ).loc main_arg3), m ((c : Thread nD τ).loc main_arg3),
        m ((c : Thread nD τ).loc main_arg5), m ((c : Thread nD τ).loc main_arg7)] : Fin 5 → (S128.Idx → EReal)) j (ix1 (featOf k)))
    _ _ (streamOf k)

/-- The whole stored value at point `t`, entry by entry, is block `t` of the result. -/
theorem stored_block (c : Dev nD) (t : Fin cfg0.N) (y : S1x2048x640.Idx) :
    k0_pay1 (F := Ideal) (xBlock m c t) (selBlock m c t) (biasBlock m c t) y
      = resultOf m c (((cfg0.win 3).blk t).view.emb y) := by
  obtain ⟨u, r, k, rfl⟩ : ∃ (u : Fin 1) (r : Fin 2048) (k : Fin 640), y = ix3 u r k := ⟨y 0, y 1, y 2, eq_ix3 y⟩
  obtain rfl : u = 0 := Subsingleton.elim _ _
  obtain ⟨-, -, -, -, -, -, -, e0, e1, e2⟩ := index_facts t
  rw [stored_entry]
  congr 1
  funext a; apply Fin.ext
  match a with
  | ⟨0, _⟩ => show t.val = win0_3.index t (0 : Fin 3) * 1 + 1 * 0; omega
  | ⟨1, _⟩ => show r.val = win0_3.index t (1 : Fin 3) * 2048 + 1 * r.val; omega
  | ⟨2, _⟩ => show k.val = win0_3.index t (2 : Fin 3) * 640 + 1 * k.val; omega

/-- WHAT POINT `t` WRITES BACK is block `t` of the result. -/
theorem written_back (c : Dev nD) (t : Fin cfg0.N) :
    (dats m 0 c).flushed 3 t = ((cfg0.win 3).blk t).view.read (Elt Ideal) (resultOf m c) := by
  show (cfg0.win 3).cut (grid0.coords t) ((dats m 0 c).after 3 t) = _
  rw [after_out]
  unfold bodyOut
  rw [View.canon_unit_zero zero3]
  simp only [View.ld_unit_zero (S := S1x2048x5) zero3, View.ld_unit_zero (S := S5x640) zero2, View.ld_unit_zero (S := S1x640) zero2]
  funext y
  exact stored_block m c t y

/-! ## The blocks tile the result -/

/-- An index of the result is in point `t`'s block iff each coordinate is in the block's range on its axis. -/
theorem mem_block (t : Fin cfg0.N) (i : S32x2048x640.Idx) :
    i ∈ ((cfg0.win 3).blk t).view.set ↔ ∀ a : Fin 3, win0_3.index t a * S1x2048x640.size a ≤ (i a).val
      ∧ (i a).val < win0_3.index t a * S1x2048x640.size a + S1x2048x640.size a := by
  show i ∈ ((View.whole main_v43).slice (win0_3.rect t)).set ↔ _
  rw [View.set_slice_whole, Rect.mem_set_unit]
  exact Iff.rfl

/-- Every index of the result is in the block of the point its leading coordinate names, and that point writes back. -/
theorem covered (i : S32x2048x640.Idx) :
    ∃ t : Fin cfg0.N, (cfg0.win 3).flush t = true ∧ i ∈ ((cfg0.win 3).blk t).view.set := by
  have h0 : (i 0).val < 32 := (i 0).isLt
  have h1 : (i 1).val < 2048 := (i 1).isLt
  have h2 : (i 2).val < 640 := (i 2).isLt
  have hN : (i 0).val < cfg0.N := Nat.lt_of_lt_of_eq h0 N_0.symm
  refine ⟨⟨(i 0).val, hN⟩, flush0_3 _, ?_⟩
  obtain ⟨-, -, -, -, -, -, -, e0, e1, e2⟩ := index_facts ⟨(i 0).val, hN⟩
  rw [mem_block]
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    have : win0_3.index ⟨(i 0).val, hN⟩ (0 : Fin 3) = (i 0).val := e0
    omega
  | ⟨1, _⟩ =>
    show win0_3.index ⟨(i 0).val, hN⟩ (1 : Fin 3) * 2048 ≤ (i 1).val ∧ (i 1).val < win0_3.index ⟨(i 0).val, hN⟩ (1 : Fin 3) * 2048 + 2048
    omega
  | ⟨2, _⟩ =>
    show win0_3.index ⟨(i 0).val, hN⟩ (2 : Fin 3) * 640 ≤ (i 2).val ∧ (i 2).val < win0_3.index ⟨(i 0).val, hN⟩ (2 : Fin 3) * 640 + 640
    omega

/-- THE RESULT ARRAY after the run. -/
theorem result_array (c : Dev nD) : (dats m 0 c).arrAt 3 cfg0.N = resultOf m c :=
  (dats m 0 c).arrAt_eq_of_cover 3 (resultOf m c) (fun t _ => written_back m c t) covered

/-! ## The run, read -/

/-- Every weakly fair execution of the idealized kernel program terminates with the result array at the specification of
    the arguments, and the arguments unchanged. -/
theorem run_result : θ_run defs (onTc (τ := τ) (main (F := Ideal))) ⟨m, fun _ => 0, ρ⟩ (fun r => ∀ c : Dev nD,
      r.2.mem ((c.tc : Thread nD τ).loc main_v43) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 3).trans (result_array m c), args_of_post m r h c⟩) (run_main m ρ)

end Cert.KernelIdeal.Streams

end
-- ==== Proof.RefImports.lean ====
/- The reference program's run and its operations read one at a time, gathered for the modules that compare it with the kernel. -/
import proofs.«128705_j11227044512450_1_alg».proof.Proof.Gen.ReferenceIdeal.Run
import proofs.«128705_j11227044512450_1_alg».proof.Proof.Gen.ReferenceIdeal.Read
-- ==== Proof.RefValue.lean ====
/-
  The reference's result, read at one entry, is the specification's.

  The reference builds each of its five streams as `(x[…, s] · W s + B s) + O[s]` over [32, 2048, 128] (a slice of `x`
  broadcast along the features, the weight and bias rows broadcast along batch and step), stacks the five on a new
  trailing axis, exchanges batch and step, and re-reads the [2048, 32, 128, 5] array row-major as [32, 2048, 640]. Read at
  `(b, r, k)` backwards: the flat position `(2048 b + r) · 640 + k` is step `(2048 b + r) / 32`, batch `(2048 b + r) % 32`,
  feature `k / 5`, stream `k % 5` of the transposed array; the exchange of the first two axes gives the stacked array's
  index, and the stack at trailing coordinate `s` is stream `s`.
-/
import proofs.«128705_j11227044512450_1_alg».proof.Proof.RefImports
import proofs.«128705_j11227044512450_1_alg».proof.Proof.Spec
import proofs.«128705_j11227044512450_1_alg».proof.Proof.LibStack5
import Idealize.ShloMosaic.Lib.ValueIdx

noncomputable section

namespace Cert.ReferenceIdeal.Streams

open Idealize.ShloMosaic Idealize.ShloMosaic.ValueIdx Cert.ReferenceIdeal Cert.ReferenceIdeal.Gen Cert.ReferenceIdeal.Read
open Cert.Streams

/-! ## One stream at an entry -/

/-- Stream 0 (its stages are operations 0 to 12 of the reference) at batch `bb`, step `mm`, feature `e`. -/
theorem bet_apply (x0 : S32x2048x5.Idx → EReal) (x1 x2 : S128.Idx → EReal) (x9 : S5x128.Idx → EReal)
    (bb : Fin 32) (mm : Fin 2048) (e : Fin 128) :
    val_main_v12 (F := Ideal) x0 x1 x2 x9 (ix3 bb mm e)
      = (x0 (ix3 bb mm (0 : Fin 5)) * x1 (ix1 e) + x2 (ix1 e)) + x9 (ix2 (0 : Fin 5) e) := by
  have ex : idx_main_v0 (idx_main_v2 (ix3 bb mm e)) = ix3 bb mm (0 : Fin 5) := by
    funext a; apply Fin.ext
    match a with
    | ⟨0, _⟩ => rfl
    | ⟨1, _⟩ => rfl
    | ⟨2, _⟩ => rfl
  have ew : idx_main_v1 (idx_main_v3 (ix3 bb mm e)) = ix1 e := by
    funext a; apply Fin.ext
    match a with
    | ⟨0, _⟩ => rfl
  have eb : idx_main_v5 (idx_main_v6 (ix3 bb mm e)) = ix1 e := by
    funext a; apply Fin.ext
    match a with
    | ⟨0, _⟩ => rfl
  have eo : idx_main_v8 (idx_main_v9 (idx_main_v10 (idx_main_v11 (ix3 bb mm e)))) = ix2 (0 : Fin 5) e := by
    funext a; apply Fin.ext
    match a with
    | ⟨0, _⟩ => rfl
    | ⟨1, _⟩ => show e.val % 128 = e.val; have := e.isLt; omega
  rw [val_main_v12_apply, val_main_v7_apply, val_main_v4_apply, val_main_v2_apply, val_main_v0_apply, val_main_v3_apply, val_main_v1_apply, val_main_v6_apply, val_main_v5_apply, val_main_v11_apply, val_main_v10_apply,
    val_main_v9_apply, val_main_v8_apply, ex, ew, eb, eo]
  rfl

/-- Stream 1 (its stages are operations 13 to 25 of the reference) at batch `bb`, step `mm`, feature `e`. -/
theorem hero_apply (x0 : S32x2048x5.Idx → EReal) (x3 x4 : S128.Idx → EReal) (x9 : S5x128.Idx → EReal)
    (bb : Fin 32) (mm : Fin 2048) (e : Fin 128) :
    val_main_v25 (F := Ideal) x0 x3 x4 x9 (ix3 bb mm e)
      = (x0 (ix3 bb mm (1 : Fin 5)) * x3 (ix1 e) + x4 (ix1 e)) + x9 (ix2 (1 : Fin 5) e) := by
  have ex : idx_main_v13 (idx_main_v15 (ix3 bb mm e)) = ix3 bb mm (1 : Fin 5) := by
    funext a; apply Fin.ext
    match a with
    | ⟨0, _⟩ => rfl
    | ⟨1, _⟩ => rfl
    | ⟨2, _⟩ => rfl
  have ew : idx_main_v14 (idx_main_v16 (ix3 bb mm e)) = ix1 e := by
    funext a; apply Fin.ext
    match a with
    | ⟨0, _⟩ => rfl
  have eb : idx_main_v18 (idx_main_v19 (ix3 bb mm e)) = ix1 e := by
    funext a; apply Fin.ext
    match a with
    | ⟨0, _⟩ => rfl
  have eo : idx_main_v21 (idx_main_v22 (idx_main_v23 (idx_main_v24 (ix3 bb mm e)))) = ix2 (1 : Fin 5) e := by
    funext a; apply Fin.ext
    match a with
    | ⟨0, _⟩ => rfl
    | ⟨1, _⟩ => show e.val % 128 = e.val; have := e.isLt; omega
  rw [val_main_v25_apply, val_main_v20_apply, val_main_v17_apply, val_main_v15_apply, val_main_v13_apply, val_main_v16_apply, val_main_v14_apply, val_main_v19_apply, val_main_v18_apply, val_main_v24_apply, val_main_v23_apply,
    val_main_v22_apply, val_main_v21_apply, ex, ew, eb, eo]
  rfl

/-- Stream 2 (its stages are operations 26 to 38 of the reference) at batch `bb`, step `mm`, feature `e`. -/
theorem villain_apply (x0 : S32x2048x5.Idx → EReal) (x3 x4 : S128.Idx → EReal) (x9 : S5x128.Idx → EReal)
    (bb : Fin 32) (mm : Fin 2048) (e : Fin 128) :
    val_main_v38 (F := Ideal) x0 x3 x4 x9 (ix3 bb mm e)
      = (x0 (ix3 bb mm (2 : Fin 5)) * x3 (ix1 e) + x4 (ix1 e)) + x9 (ix2 (2 : Fin 5) e) := by
  have ex : idx_main_v26 (idx_main_v28 (ix3 bb mm e)) = ix3 bb mm (2 : Fin 5) := by
    funext a; apply Fin.ext
    match a with
    | ⟨0, _⟩ => rfl
    | ⟨1, _⟩ => rfl
    | ⟨2, _⟩ => rfl
  have ew : idx_main_v27 (idx_main_v29 (ix3 bb mm e)) = ix1 e := by
    funext a; apply Fin.ext
    match a with
    | ⟨0, _⟩ => rfl
  have eb : idx_main_v31 (idx_main_v32 (ix3 bb mm e)) = ix1 e := by
    funext a; apply Fin.ext
    match a with
    | ⟨0, _⟩ => rfl
  have eo : idx_main_v34 (idx_main_v35 (idx_main_v36 (idx_main_v37 (ix3 bb mm e)))) = ix2 (2 : Fin 5) e := by
    funext a; apply Fin.ext
    match a with
    | ⟨0, _⟩ => rfl
    | ⟨1, _⟩ => show e.val % 128 = e.val; have := e.isLt; omega
  rw [val_main_v38_apply, val_main_v33_apply, val_main_v30_apply, val_main_v28_apply, val_main_v26_apply, val_main_v29_apply, val_main_v27_apply, val_main_v32_apply, val_main_v31_apply, val_main_v37_apply, val_main_v36_apply,
    val_main_v35_apply, val_main_v34_apply, ex, ew, eb, eo]
  rfl

/-- Stream 3 (its stages are operations 39 to 51 of the reference) at batch `bb`, step `mm`, feature `e`. -/
theorem call_apply (x0 : S32x2048x5.Idx → EReal) (x5 x6 : S128.Idx → EReal) (x9 : S5x128.Idx → EReal)
    (bb : Fin 32) (mm : Fin 2048) (e : Fin 128) :
    val_main_v51 (F := Ideal) x0 x5 x6 x9 (ix3 bb mm e)
      = (x0 (ix3 bb mm (3 : Fin 5)) * x5 (ix1 e) + x6 (ix1 e)) + x9 (ix2 (3 : Fin 5) e) := by
  have ex : idx_main_v39 (idx_main_v41 (ix3 bb mm e)) = ix3 bb mm (3 : Fin 5) := by
    funext a; apply Fin.ext
    match a with
    | ⟨0, _⟩ => rfl
    | ⟨1, _⟩ => rfl
    | ⟨2, _⟩ => rfl
  have ew : idx_main_v40 (idx_main_v42 (ix3 bb mm e)) = ix1 e := by
    funext a; apply Fin.ext
    match a with
    | ⟨0, _⟩ => rfl
  have eb : idx_main_v44 (idx_main_v45 (ix3 bb mm e)) = ix1 e := by
    funext a; apply Fin.ext
    match a with
    | ⟨0, _⟩ => rfl
  have eo : idx_main_v47 (idx_main_v48 (idx_main_v49 (idx_main_v50 (ix3 bb mm e)))) = ix2 (3 : Fin 5) e := by
    funext a; apply Fin.ext
    match a with
    | ⟨0, _⟩ => rfl
    | ⟨1, _⟩ => show e.val % 128 = e.val; have := e.isLt; omega
  rw [val_main_v51_apply, val_main_v46_apply, val_main_v43_apply, val_main_v41_apply, val_main_v39_apply, val_main_v42_apply, val_main_v40_apply, val_main_v45_apply, val_main_v44_apply, val_main_v50_apply, val_main_v49_apply,
    val_main_v48_apply, val_main_v47_apply, ex, ew, eb, eo]
  rfl

/-- Stream 4 (its stages are operations 52 to 64 of the reference) at batch `bb`, step `mm`, feature `e`. -/
theorem odds_apply (x0 : S32x2048x5.Idx → EReal) (x7 x8 : S128.Idx → EReal) (x9 : S5x128.Idx → EReal)
    (bb : Fin 32) (mm : Fin 2048) (e : Fin 128) :
    val_main_v64 (F := Ideal) x0 x7 x8 x9 (ix3 bb mm e)
      = (x0 (ix3 bb mm (4 : Fin 5)) * x7 (ix1 e) + x8 (ix1 e)) + x9 (ix2 (4 : Fin 5) e) := by
  have ex : idx_main_v52 (idx_main_v54 (ix3 bb mm e)) = ix3 bb mm (4 : Fin 5) := by
    funext a; apply Fin.ext
    match a with
    | ⟨0, _⟩ => rfl
    | ⟨1, _⟩ => rfl
    | ⟨2, _⟩ => rfl
  have ew : idx_main_v53 (idx_main_v55 (ix3 bb mm e)) = ix1 e := by
    funext a; apply Fin.ext
    match a with
    | ⟨0, _⟩ => rfl
  have eb : idx_main_v57 (idx_main_v58 (ix3 bb mm e)) = ix1 e := by
    funext a; apply Fin.ext
    match a with
    | ⟨0, _⟩ => rfl
  have eo : idx_main_v60 (idx_main_v61 (idx_main_v62 (idx_main_v63 (ix3 bb mm e)))) = ix2 (4 : Fin 5) e := by
    funext a; apply Fin.ext
    match a with
    | ⟨0, _⟩ => rfl
    | ⟨1, _⟩ => show e.val % 128 = e.val; have := e.isLt; omega
  rw [val_main_v64_apply, val_main_v59_apply, val_main_v56_apply, val_main_v54_apply, val_main_v52_apply, val_main_v55_apply, val_main_v53_apply, val_main_v58_apply, val_main_v57_apply, val_main_v63_apply, val_main_v62_apply,
    val_main_v61_apply, val_main_v60_apply, ex, ew, eb, eo]
  rfl

/-! ## The stack, the exchange of batch and step, and the re-reading as rows of 640 -/

/-- The index of the stacked array that entry `(b, r, k)` of the result reads. -/
theorem source_index (b : Fin 32) (r : Fin 2048) (k : Fin 640) :
    idx_main_v71 (idx_main_v72 (ix3 b r k)) = ix4 (srcBatch b r) (srcStep b r) (featOf k) (streamOf k) := by
  have hb := b.isLt; have hr := r.isLt; have hk := k.isLt
  funext a; apply Fin.ext
  match a with
  | ⟨0, _⟩ => show ((b.val * 2048 + r.val) * 640 + k.val) / 640 % 32 = (b.val * 2048 + r.val) % 32; omega
  | ⟨1, _⟩ => show ((b.val * 2048 + r.val) * 640 + k.val) / 20480 = (b.val * 2048 + r.val) / 32; omega
  | ⟨2, _⟩ => show ((b.val * 2048 + r.val) * 640 + k.val) / 5 % 128 = k.val / 5; omega
  | ⟨3, _⟩ => show ((b.val * 2048 + r.val) * 640 + k.val) % 5 = k.val % 5; omega

/-- The stacked array at `(bb, mm, e, s)` is stream `s` at `(bb, mm, e)`. -/
theorem stacked_apply (x0 : S32x2048x5.Idx → EReal) (x1 x2 x3 x4 x5 x6 x7 x8 : S128.Idx → EReal) (x9 : S5x128.Idx → EReal)
    (bb : Fin 32) (mm : Fin 2048) (e : Fin 128) (s : Fin 5) :
    val_main_v70 (F := Ideal) x0 x1 x2 x3 x4 x5 x6 x7 x8 x9 (ix4 bb mm e s)
      = (x0 (ix3 bb mm s) * (![x1, x3, x3, x5, x7] : Fin 5 → (S128.Idx → EReal)) s (ix1 e)
          + (![x2, x4, x4, x6, x8] : Fin 5 → (S128.Idx → EReal)) s (ix1 e)) + x9 (ix2 s e) := by
  unfold val_main_v70
  rw [concatenate_five_unit_apply (t := S32x2048x128x5) (s₁ := S32x2048x128x1) (3 : Fin 4) _ _ _ _ _ _ rfl rfl (ix4 bb mm e s) s rfl (ix4 bb mm e (0 : Fin 1))
    (fun bx hbx => by
      match bx with
      | ⟨0, _⟩ => rfl
      | ⟨1, _⟩ => rfl
      | ⟨2, _⟩ => rfl
      | ⟨3, _⟩ => exact absurd rfl hbx)]
  have eu : ∀ (bb : Fin 32) (mm : Fin 2048) (e : Fin 128),
      idx_main_v65 (ix4 bb mm e (0 : Fin 1)) = ix3 bb mm e := fun bb mm e => by
    funext a; apply Fin.ext
    match a with
    | ⟨0, _⟩ => rfl
    | ⟨1, _⟩ => rfl
    | ⟨2, _⟩ => rfl
  fin_cases s
  · show val_main_v65 (F := Ideal) x0 x1 x2 x9 (ix4 bb mm e (0 : Fin 1)) = _
    rw [val_main_v65_apply, eu, bet_apply]; rfl
  · show val_main_v66 (F := Ideal) x0 x3 x4 x9 (ix4 bb mm e (0 : Fin 1)) = _
    rw [val_main_v66_apply, show idx_main_v66 (ix4 bb mm e (0 : Fin 1)) = ix3 bb mm e from eu bb mm e, hero_apply]; rfl
  · show val_main_v67 (F := Ideal) x0 x3 x4 x9 (ix4 bb mm e (0 : Fin 1)) = _
    rw [val_main_v67_apply, show idx_main_v67 (ix4 bb mm e (0 : Fin 1)) = ix3 bb mm e from eu bb mm e, villain_apply]; rfl
  · show val_main_v68 (F := Ideal) x0 x5 x6 x9 (ix4 bb mm e (0 : Fin 1)) = _
    rw [val_main_v68_apply, show idx_main_v68 (ix4 bb mm e (0 : Fin 1)) = ix3 bb mm e from eu bb mm e, call_apply]; rfl
  · show val_main_v69 (F := Ideal) x0 x7 x8 x9 (ix4 bb mm e (0 : Fin 1)) = _
    rw [val_main_v69_apply, show idx_main_v69 (ix4 bb mm e (0 : Fin 1)) = ix3 bb mm e from eu bb mm e, odds_apply]; rfl

/-- THE REFERENCE'S RESULT is the specification's, with the streams' weight and bias rows in stream order. -/
theorem result_eq (x0 : S32x2048x5.Idx → EReal) (x1 x2 x3 x4 x5 x6 x7 x8 : S128.Idx → EReal) (x9 : S5x128.Idx → EReal) :
    val_main_v72 (F := Ideal) x0 x1 x2 x3 x4 x5 x6 x7 x8 x9
      = out x0 ![x1, x3, x3, x5, x7] ![x2, x4, x4, x6, x8] x9 := by
  funext j
  obtain ⟨b, r, k, rfl⟩ : ∃ (b : Fin 32) (r : Fin 2048) (k : Fin 640), j = ix3 b r k := ⟨j 0, j 1, j 2, eq_ix3 j⟩
  rw [val_main_v72_apply, val_main_v71_apply, source_index, stacked_apply, out_ix3]
  rfl

end Cert.ReferenceIdeal.Streams

end
-- ==== Proof.lean ====
/-
  The certificate of a five-stream affine embedding.

  Both programs map `x : [32, 2048, 5]`, four pairs of weight and bias rows of length 128 (the second and third streams share
  a pair) and a table `O : [5, 128]` to the [32, 2048, 640] array whose entry `(b, r, k)` is
  `(x[β, σ, s] · W s [e] + B s [e]) + O[s, e]` with `s = k % 5`, `e = k / 5`, and `(σ, β) = ((2048 b + r) / 32, (2048 b + r) % 32)`
  — the five streams stacked on a trailing axis, batch and step exchanged, the array re-read as rows of 640.

  The reference computes the streams by broadcasting and stacks them. The kernel program permutes the rows of `x` by the
  same exchange-and-re-read on the host, builds a 5 × 640 selector `W j [e] · δ j s` and a bias row `B s [e] + O[s, e]`, and a
  32-point grid computes each block of 2048 rows as the five-term sum `Σ_j x[·, j] · selector[j, ·]` plus the bias row. On the
  extended reals the four products with `δ = 0` vanish and the one with `δ = 1` is `x · W`, for every value of `x` and `W`;
  the two results then differ by the association of a sum. The precondition is not used.

  The frames: the kernel programs' (word-level and idealized, one text) are the pipelined region's run after the host
  prefix, the arguments among the buffers nothing writes; the reference's is its run with the result dropped. The
  idealization rewrote no operation.
-/
import proofs.«128705_j11227044512450_1_alg».proof.Defs
import proofs.«128705_j11227044512450_1_alg».proof.Proof.Gen.Kernel
import proofs.«128705_j11227044512450_1_alg».proof.Proof.Gen.KernelIdeal
import proofs.«128705_j11227044512450_1_alg».proof.Proof.Gen.ReferenceIdeal
import proofs.«128705_j11227044512450_1_alg».proof.Proof.Gen.Pre_finite_inputs
import proofs.«128705_j11227044512450_1_alg».proof.Proof.KernelRegion
import proofs.«128705_j11227044512450_1_alg».proof.Proof.KernelIdealRegion
import proofs.«128705_j11227044512450_1_alg».proof.Proof.KernelValue
import proofs.«128705_j11227044512450_1_alg».proof.Proof.RefValue
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Kernel.Region.args_unchanged m ρ

/-- So does the idealized one. -/
theorem frame_kernel_ideal : Cert.frame_KernelIdeal := fun m ρ _ => Cert.KernelIdeal.Region.args_unchanged m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the specification of those arguments in
    their result array. -/
theorem algebraic : Cert.algebraic_KernelIdeal_ReferenceIdeal := by
  intro m ρ m' ρ' _ hagree
  refine ⟨fun c => Cert.KernelIdeal.Streams.resultOf m c, Cert.KernelIdeal.Streams.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v72_eq, Cert.ReferenceIdeal.Streams.result_eq, h0, h1, h2, h3, h4, h5, h6, h7, h8, h9]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
